-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x80 : Shape := ⟨2, ![8192, 80]⟩
abbrev S20480x128 : Shape := ⟨2, ![20480, 128]⟩
abbrev S128 : Shape := ⟨1, ![128]⟩
abbrev S128x128 : Shape := ⟨2, ![128, 128]⟩
abbrev S_ : Shape := ⟨0, ![]⟩

class Facts : Prop where
  bcast_S_S20480x128 : S_.BroadcastsInDim S20480x128 (![] : Fin 0 → Fin S20480x128.rank)
  reducesTo_S20480x128_S_d0_1 : S20480x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8192x80 : S_.BroadcastsInDim S8192x80 (![] : Fin 0 → Fin S8192x80.rank)
  reducesTo_S8192x80_S_d0_1 : S8192x80.ReducesTo [0, 1] S_

variable [Facts]

def fn_part2 {F : FTy → Type} [FloatOps F] (main_arg0 : IVec S8192x80 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S8192x80 32 := broadcastInDim S8192x80 ![] bcast_S_S8192x80 main_c_14
  let main_v40 : IVec S8192x80 1 := cmpi .sge main_arg0 main_v39
  let main_c_15 : IVec S_ 32 := constantI S_ 32 256#32
  let main_v41 : IVec S8192x80 32 := broadcastInDim S8192x80 ![] bcast_S_S8192x80 main_c_15
  let main_v42 : IVec S8192x80 1 := cmpi .slt main_arg0 main_v41
  let main_v43 : IVec S8192x80 1 := andi main_v40 main_v42
  let main_c_16 : IVec S_ 1 := constantI S_ 1 1#1
  let main_v44 : IVec S_ 1 := (fun x v => Host.reduce IntOp.andi x v reducesTo_S8192x80_S_d0_1 h_S_) main_v43 main_c_16
  let main_v45 : IVec S_ 1 := andi main_v38 main_v44
  main_v45

def fn_part1 {F : FTy → Type} [FloatOps F] (main_arg0 : IVec S8192x80 32) (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg8 main_v33

def fn {F : FTy → Type} [FloatOps F] (main_arg0 : IVec S8192x80 32) (main_arg1 : FVec F S20480x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S20480x128 .f32 := Host.absf main_arg1
  let main_cst : FVec F S_ .f32 := constant S_ .f32 0x7F800000#32
  let main_v1 : FVec F S20480x128 .f32 := broadcastInDim S20480x128 ![] bcast_S_S20480x128 main_cst
  let main_v2 : IVec S20480x128 1 := cmpf .olt main_v0 main_v1
  let main_c : IVec S_ 1 := constantI S_ 1 1#1
  let main_v3 : IVec S_ 1 := (fun x v => Host.reduce IntOp.andi x v reducesTo_S20480x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_arg7 main_arg8 main_v13 main_v16
-- ==== Kernel.lean ====
abbrev S8192x80 : Shape := ⟨2, ![8192, 80]⟩
abbrev S20480x128 : Shape := ⟨2, ![20480, 128]⟩
abbrev S128 : Shape := ⟨1, ![128]⟩
abbrev S128x128 : Shape := ⟨2, ![128, 128]⟩
abbrev S80x256x128 : Shape := ⟨3, ![80, 256, 128]⟩
abbrev S1x128 : Shape := ⟨2, ![1, 128]⟩
abbrev S8192x128 : Shape := ⟨2, ![8192, 128]⟩
abbrev S1024x80 : Shape := ⟨2, ![1024, 80]⟩
abbrev S1024x128 : Shape := ⟨2, ![1024, 128]⟩
abbrev S1024x256 : Shape := ⟨2, ![1024, 256]⟩
abbrev S1024x1 : Shape := ⟨2, ![1024, 1]⟩
abbrev S1x256x128 : Shape := ⟨3, ![1, 256, 128]⟩
abbrev S256x128 : Shape := ⟨2, ![256, 128]⟩

abbrev nBuf : Space → Nat
  | .hbm => 22
  | .vmem => 13
  | .smem => 0
  | _ => 0

abbrev bufTy : (tb : Table) → Fin (tcTables nBuf tb) → BufTy
  | .hbm, ⟨0, _⟩ => ⟨S8192x80, .i32⟩
  | .hbm, ⟨1, _⟩ => ⟨S20480x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S80x256x128, .f32⟩
  | .hbm, ⟨10, _⟩ => ⟨S80x256x128, .bf16⟩
  | .hbm, ⟨11, _⟩ => ⟨S80x256x128, .f32⟩
  | .hbm, ⟨12, _⟩ => ⟨S80x256x128, .f32⟩
  | .hbm, ⟨13, _⟩ => ⟨S80x256x128, .bf16⟩
  | .hbm, ⟨14, _⟩ => ⟨S128x128, .bf16⟩
  | .hbm, ⟨15, _⟩ => ⟨S128x128, .bf16⟩
  | .hbm, ⟨16, _⟩ => ⟨S128x128, .bf16⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S8192x128, .f32⟩
  | .local _ .vmem, ⟨0, _⟩ => ⟨S1024x80, .i32⟩
  | .local _ .vmem, ⟨1, _⟩ => ⟨S1024x80, .i32⟩
  | .local _ .vmem, ⟨2, _⟩ => ⟨S80x256x128, .bf16⟩
  | .local _ .vmem, ⟨3, _⟩ => ⟨S80x256x128, .bf16⟩
  | .local _ .vmem, ⟨4, _⟩ => ⟨S1x128, .f32⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | _, _ => ⟨S8192x80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x80 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S20480x128_S80x256x128 : S20480x128.ShapeCasts S80x256x128
  bitsLt_bf16_f32 : FTy.bits .bf16 < FTy.bits .f32
  shapeCasts_S128_S1x128 : S128.ShapeCasts S1x128
  iota_S1024x256_d1_w32 : S1024x256.Iotas .tc 32 [1]
  inb_S1024x80_S1024x1_0_0 : ∀ a, (![0, 0] : Fin 2 → Nat) a + S1024x1.size a ≤ S1024x80.size a
  h_S1024x1 : 0 < S1024x1.numel
  broadcasts_S1024x1_S1024x256 : S1024x1.Broadcasts S1024x256
  natLt_1_32 : 1 < 32
  inb_S80x256x128_S1x256x128_0_0_0 : ∀ a, (![0, 0, 0] : Fin 3 → Nat) a + S1x256x128.size a ≤ S80x256x128.size a
  h_S1x256x128 : 0 < S1x256x128.numel
  shapeCasts_S1x256x128_S256x128 : S1x256x128.ShapeCasts S256x128
  inb_S1024x80_S1024x1_0_1 : ∀ a, (![0, 1] : Fin 2 → Nat) a + S1024x1.size a ≤ S1024x80.size a
  inb_S80x256x128_S1x256x128_1_0_0 : ∀ a, (![1, 0, 0] : Fin 3 → Nat) a + S1x256x128.size a ≤ S80x256x128.size a
  inb_S1024x80_S1024x1_0_2 : ∀ a, (![0, 2] : Fin 2 → Nat) a + S1024x1.size a ≤ S1024x80.size a
  inb_S80x256x128_S1x256x128_2_0_0 : ∀ a, (![2, 0, 0] : Fin 3 → Nat) a + S1x256x128.size a ≤ S80x256x128.size a
  inb_S1024x80_S1024x1_0_3 : ∀ a, (![0, 3] : Fin 2 → Nat) a + S1024x1.size a ≤ S1024x80.size a
  inb_S80x256x128_S1x256x128_3_0_0 : ∀ a, (![3, 0, 0] : Fin 3 → Nat) a + S1x256x128.size a ≤ S80x256x128.size a
  inb_S1024x80_S1024x1_0_4 : ∀ a, (![0, 4] : Fin 2 → Nat) a + S1024x1.size a ≤ S1024x80.size a
  inb_S80x256x128_S1x256x128_4_0_0 : ∀ a, (![4, 0, 0] : Fin 3 → Nat) a + S1x256x128.size a ≤ S80x256x128.size a
  inb_S1024x80_S1024x1_0_5 : ∀ a, (![0, 5] : Fin 2 → Nat) a + S1024x1.size a ≤ S1024x80.size a
  inb_S80x256x128_S1x256x128_5_0_0 : ∀ a, (![5, 0, 0] : Fin 3 → Nat) a + S1x256x128.size a ≤ S80x256x128.size a
  inb_S1024x80_S1024x1_0_6 : ∀ a, (![0, 6] : Fin 2 → Nat) a + S1024x1.size a ≤ S1024x80.size a
  inb_S80x256x128_S1x256x128_6_0_0 : ∀ a, (![6, 0, 0] : Fin 3 → Nat) a + S1x256x128.size a ≤ S80x256x128.size a
  inb_S1024x80_S1024x1_0_7 : ∀ a, (![0, 7] : Fin 2 → Nat) a + S1024x1.size a ≤ S1024x80.size a
  inb_S80x256x128_S1x256x128_7_0_0 : ∀ a, (![7, 0, 0] : Fin 3 → Nat) a + S1x256x128.size a ≤ S80x256x128.size a
  inb_S1024x80_S1024x1_0_8 : ∀ a, (![0, 8] : Fin 2 → Nat) a + S1024x1.size a ≤ S1024x80.size a
  inb_S80x256x128_S1x256x128_8_0_0 : ∀ a, (![8, 0, 0] : Fin 3 → Nat) a + S1x256x128.size a ≤ S80x256x128.size a
  inb_S1024x80_S1024x1_0_9 : ∀ a, (![0, 9] : Fin 2 → Nat) a + S1024x1.size a ≤ S1024x80.size a
  inb_S80x256x128_S1x256x128_9_0_0 : ∀ a, (![9, 0, 0] : Fin 3 → Nat) a + S1x256x128.size a ≤ S80x256x128.size a
  inb_S1024x80_S1024x1_0_10 : ∀ a, (![0, 10] : Fin 2 → Nat) a + S1024x1.size a ≤ S1024x80.size a
  inb_S80x256x128_S1x256x128_10_0_0 : ∀ a, (![10, 0, 0] : Fin 3 → Nat) a + S1x256x128.size a ≤ S80x256x128.size a
  inb_S1024x80_S1024x1_0_11 : ∀ a, (![0, 11] : Fin 2 → Nat) a + S1024x1.size a ≤ S1024x80.size a
  inb_S80x256x128_S1x256x128_11_0_0 : ∀ a, (![11, 0, 0] : Fin 3 → Nat) a + S1x256x128.size a ≤ S80x256x128.size a
  inb_S1024x80_S1024x1_0_12 : ∀ a, (![0, 12] : Fin 2 → Nat) a + S1024x1.size a ≤ S1024x80.size a
  inb_S80x256x128_S1x256x128_12_0_0 : ∀ a, (![12, 0, 0] : Fin 3 → Nat) a + S1x256x128.size a ≤ S80x256x128.size a
  inb_S1024x80_S1024x1_0_13 : ∀ a, (![0, 13] : Fin 2 → Nat) a + S1024x1.size a ≤ S1024x80.size a
  inb_S80x256x128_S1x256x128_13_0_0 : ∀ a, (![13, 0, 0] : Fin 3 → Nat) a + S1x256x128.size a ≤ S80x256x128.size a
  inb_S1024x80_S1024x1_0_14 : ∀ a, (![0, 14] : Fin 2 → Nat) a + S1024x1.size a ≤ S1024x80.size a
  inb_S80x256x128_S1x256x128_14_0_0 : ∀ a, (![14, 0, 0] : Fin 3 → Nat) a + S1x256x128.size a ≤ S80x256x128.size a
  inb_S1024x80_S1024x1_0_15 : ∀ a, (![0, 15] : Fin 2 → Nat) a + S1024x1.size a ≤ S1024x80.size a
  inb_S80x256x128_S1x256x128_15_0_0 : ∀ a, (![15, 0, 0] : Fin 3 → Nat) a + S1x256x128.size a ≤ S80x256x128.size a
  inb_S1024x80_S1024x1_0_16 : ∀ a, (![0, 16] : Fin 2 → Nat) a + S1024x1.size a ≤ S1024x80.size a
  inb_S80x256x128_S1x256x128_16_0_0 : ∀ a, (![16, 0, 0] : Fin 3 → Nat) a + S1x256x128.size a ≤ S80x256x128.size a
  inb_S1024x80_S1024x1_0_17 : ∀ a, (![0, 17] : Fin 2 → Nat) a + S1024x1.size a ≤ S1024x80.size a
  inb_S80x256x128_S1x256x128_17_0_0 : ∀ a, (![17, 0, 0] : Fin 3 → Nat) a + S1x256x128.size a ≤ S80x256x128.size a
  inb_S1024x80_S1024x1_0_18 : ∀ a, (![0, 18] : Fin 2 → Nat) a + S1024x1.size a ≤ S1024x80.size a
  inb_S80x256x128_S1x256x128_18_0_0 : ∀ a, (![18, 0, 0] : Fin 3 → Nat) a + S1x256x128.size a ≤ S80x256x128.size a
  inb_S1024x80_S1024x1_0_19 : ∀ a, (![0, 19] : Fin 2 → Nat) a + S1024x1.size a ≤ S1024x80.size a
  inb_S80x256x128_S1x256x128_19_0_0 : ∀ a, (![19, 0, 0] : Fin 3 → Nat) a + S1x256x128.size a ≤ S80x256x128.size a
  inb_S1024x80_S1024x1_0_20 : ∀ a, (![0, 20] : Fin 2 → Nat) a + S1024x1.size a ≤ S1024x80.size a
  inb_S80x256x128_S1x256x128_20_0_0 : ∀ a, (![20, 0, 0] : Fin 3 → Nat) a + S1x256x128.size a ≤ S80x256x128.size a
  inb_S1024x80_S1024x1_0_21 : ∀ a, (![0, 21] : Fin 2 → Nat) a + S1024x1.size a ≤ S1024x80.size a
  inb_S80x256x128_S1x256x128_21_0_0 : ∀ a, (![21, 0, 0] : Fin 3 → Nat) a + S1x256x128.size a ≤ S80x256x128.size a
  inb_S1024x80_S1024x1_0_22 : ∀ a, (![0, 22] : Fin 2 → Nat) a + S1024x1.size a ≤ S1024x80.size a
  inb_S80x256x128_S1x256x128_22_0_0 : ∀ a, (![22, 0, 0] : Fin 3 → Nat) a + S1x256x128.size a ≤ S80x256x128.size a
  inb_S1024x80_S1024x1_0_23 : ∀ a, (![0, 23] : Fin 2 → Nat) a + S1024x1.size a ≤ S1024x80.size a
  inb_S80x256x128_S1x256x128_23_0_0 : ∀ a, (![23, 0, 0] : Fin 3 → Nat) a + S1x256x128.size a ≤ S80x256x128.size a
  inb_S1024x80_S1024x1_0_24 : ∀ a, (![0, 24] : Fin 2 → Nat) a + S1024x1.size a ≤ S1024x80.size a
  inb_S80x256x128_S1x256x128_24_0_0 : ∀ a, (![24, 0, 0] : Fin 3 → Nat) a + S1x256x128.size a ≤ S80x256x128.size a
  inb_S1024x80_S1024x1_0_25 : ∀ a, (![0, 25] : Fin 2 → Nat) a + S1024x1.size a ≤ S1024x80.size a
  inb_S80x256x128_S1x256x128_25_0_0 : ∀ a, (![25, 0, 0] : Fin 3 → Nat) a + S1x256x128.size a ≤ S80x256x128.size a
  inb_S1024x80_S1024x1_0_26 : ∀ a, (![0, 26] : Fin 2 → Nat) a + S1024x1.size a ≤ S1024x80.size a
  inb_S80x256x128_S1x256x128_26_0_0 : ∀ a, (![26, 0, 0] : Fin 3 → Nat) a + S1x256x128.size a ≤ S80x256x128.size a
  inb_S1024x80_S1024x1_0_27 : ∀ a, (![0, 27] : Fin 2 → Nat) a + S1024x1.size a ≤ S1024x80.size a
  inb_S80x256x128_S1x256x128_27_0_0 : ∀ a, (![27, 0, 0] : Fin 3 → Nat) a + S1x256x128.size a ≤ S80x256x128.size a
  inb_S1024x80_S1024x1_0_28 : ∀ a, (![0, 28] : Fin 2 → Nat) a + S1024x1.size a ≤ S1024x80.size a
  inb_S80x256x128_S1x256x128_28_0_0 : ∀ a, (![28, 0, 0] : Fin 3 → Nat) a + S1x256x128.size a ≤ S80x256x128.size a
  inb_S1024x80_S1024x1_0_29 : ∀ a, (![0, 29] : Fin 2 → Nat) a + S1024x1.size a ≤ S1024x80.size a
  inb_S80x256x128_S1x256x128_29_0_0 : ∀ a, (![29, 0, 0] : Fin 3 → Nat) a + S1x256x128.size a ≤ S80x256x128.size a
  inb_S1024x80_S1024x1_0_30 : ∀ a, (![0, 30] : Fin 2 → Nat) a + S1024x1.size a ≤ S1024x80.size a
  inb_S80x256x128_S1x256x128_30_0_0 : ∀ a, (![30, 0, 0] : Fin 3 → Nat) a + S1x256x128.size a ≤ S80x256x128.size a
  inb_S1024x80_S1024x1_0_31 : ∀ a, (![0, 31] : Fin 2 → Nat) a + S1024x1.size a ≤ S1024x80.size a
  inb_S80x256x128_S1x256x128_31_0_0 : ∀ a, (![31, 0, 0] : Fin 3 → Nat) a + S1x256x128.size a ≤ S80x256x128.size a
  inb_S1024x80_S1024x1_0_32 : ∀ a, (![0, 32] : Fin 2 → Nat) a + S1024x1.size a ≤ S1024x80.size a
  inb_S80x256x128_S1x256x128_32_0_0 : ∀ a, (![32, 0, 0] : Fin 3 → Nat) a + S1x256x128.size a ≤ S80x256x128.size a
  inb_S1024x80_S1024x1_0_33 : ∀ a, (![0, 33] : Fin 2 → Nat) a + S1024x1.size a ≤ S1024x80.size a
  inb_S80x256x128_S1x256x128_33_0_0 : ∀ a, (![33, 0, 0] : Fin 3 → Nat) a + S1x256x128.size a ≤ S80x256x128.size a
  inb_S1024x80_S1024x1_0_34 : ∀ a, (![0, 34] : Fin 2 → Nat) a + S1024x1.size a ≤ S1024x80.size a
  inb_S80x256x128_S1x256x128_34_0_0 : ∀ a, (![34, 0, 0] : Fin 3 → Nat) a + S1x256x128.size a ≤ S80x256x128.size a
  inb_S1024x80_S1024x1_0_35 : ∀ a, (![0, 35] : Fin 2 → Nat) a + S1024x1.size a ≤ S1024x80.size a
  inb_S80x256x128_S1x256x128_35_0_0 : ∀ a, (![35, 0, 0] : Fin 3 → Nat) a + S1x256x128.size a ≤ S80x256x128.size a
  inb_S1024x80_S1024x1_0_36 : ∀ a, (![0, 36] : Fin 2 → Nat) a + S1024x1.size a ≤ S1024x80.size a
  inb_S80x256x128_S1x256x128_36_0_0 : ∀ a, (![36, 0, 0] : Fin 3 → Nat) a + S1x256x128.size a ≤ S80x256x128.size a
  inb_S1024x80_S1024x1_0_37 : ∀ a, (![0, 37] : Fin 2 → Nat) a + S1024x1.size a ≤ S1024x80.size a
  inb_S80x256x128_S1x256x128_37_0_0 : ∀ a, (![37, 0, 0] : Fin 3 → Nat) a + S1x256x128.size a ≤ S80x256x128.size a
  inb_S1024x80_S1024x1_0_38 : ∀ a, (![0, 38] : Fin 2 → Nat) a + S1024x1.size a ≤ S1024x80.size a
  inb_S80x256x128_S1x256x128_38_0_0 : ∀ a, (![38, 0, 0] : Fin 3 → Nat) a + S1x256x128.size a ≤ S80x256x128.size a
  inb_S1024x80_S1024x1_0_39 : ∀ a, (![0, 39] : Fin 2 → Nat) a + S1024x1.size a ≤ S1024x80.size a
  inb_S80x256x128_S1x256x128_39_0_0 : ∀ a, (![39, 0, 0] : Fin 3 → Nat) a + S1x256x128.size a ≤ S80x256x128.size a
  inb_S1024x80_S1024x1_0_40 : ∀ a, (![0, 40] : Fin 2 → Nat) a + S1024x1.size a ≤ S1024x80.size a
  inb_S80x256x128_S1x256x128_40_0_0 : ∀ a, (![40, 0, 0] : Fin 3 → Nat) a + S1x256x128.size a ≤ S80x256x128.size a
  inb_S1024x80_S1024x1_0_41 : ∀ a, (![0, 41] : Fin 2 → Nat) a + S1024x1.size a ≤ S1024x80.size a
  inb_S80x256x128_S1x256x128_41_0_0 : ∀ a, (![41, 0, 0] : Fin 3 → Nat) a + S1x256x128.size a ≤ S80x256x128.size a
  inb_S1024x80_S1024x1_0_42 : ∀ a, (![0, 42] : Fin 2 → Nat) a + S1024x1.size a ≤ S1024x80.size a
  inb_S80x256x128_S1x256x128_42_0_0 : ∀ a, (![42, 0, 0] : Fin 3 → Nat) a + S1x256x128.size a ≤ S80x256x128.size a
  inb_S1024x80_S1024x1_0_43 : ∀ a, (![0, 43] : Fin 2 → Nat) a + S1024x1.size a ≤ S1024x80.size a
  inb_S80x256x128_S1x256x128_43_0_0 : ∀ a, (![43, 0, 0] : Fin 3 → Nat) a + S1x256x128.size a ≤ S80x256x128.size a
  inb_S1024x80_S1024x1_0_44 : ∀ a, (![0, 44] : Fin 2 → Nat) a + S1024x1.size a ≤ S1024x80.size a
  inb_S80x256x128_S1x256x128_44_0_0 : ∀ a, (![44, 0, 0] : Fin 3 → Nat) a + S1x256x128.size a ≤ S80x256x128.size a
  inb_S1024x80_S1024x1_0_45 : ∀ a, (![0, 45] : Fin 2 → Nat) a + S1024x1.size a ≤ S1024x80.size a
  inb_S80x256x128_S1x256x128_45_0_0 : ∀ a, (![45, 0, 0] : Fin 3 → Nat) a + S1x256x128.size a ≤ S80x256x128.size a
  inb_S1024x80_S1024x1_0_46 : ∀ a, (![0, 46] : Fin 2 → Nat) a + S1024x1.size a ≤ S1024x80.size a
  inb_S80x256x128_S1x256x128_46_0_0 : ∀ a, (![46, 0, 0] : Fin 3 → Nat) a + S1x256x128.size a ≤ S80x256x128.size a
  inb_S1024x80_S1024x1_0_47 : ∀ a, (![0, 47] : Fin 2 → Nat) a + S1024x1.size a ≤ S1024x80.size a
  inb_S80x256x128_S1x256x128_47_0_0 : ∀ a, (![47, 0, 0] : Fin 3 → Nat) a + S1x256x128.size a ≤ S80x256x128.size a
  inb_S1024x80_S1024x1_0_48 : ∀ a, (![0, 48] : Fin 2 → Nat) a + S1024x1.size a ≤ S1024x80.size a
  inb_S80x256x128_S1x256x128_48_0_0 : ∀ a, (![48, 0, 0] : Fin 3 → Nat) a + S1x256x128.size a ≤ S80x256x128.size a
  inb_S1024x80_S1024x1_0_49 : ∀ a, (![0, 49] : Fin 2 → Nat) a + S1024x1.size a ≤ S1024x80.size a
  inb_S80x256x128_S1x256x128_49_0_0 : ∀ a, (![49, 0, 0] : Fin 3 → Nat) a + S1x256x128.size a ≤ S80x256x128.size a
  inb_S1024x80_S1024x1_0_50 : ∀ a, (![0, 50] : Fin 2 → Nat) a + S1024x1.size a ≤ S1024x80.size a
  inb_S80x256x128_S1x256x128_50_0_0 : ∀ a, (![50, 0, 0] : Fin 3 → Nat) a + S1x256x128.size a ≤ S80x256x128.size a
  inb_S1024x80_S1024x1_0_51 : ∀ a, (![0, 51] : Fin 2 → Nat) a + S1024x1.size a ≤ S1024x80.size a
  inb_S80x256x128_S1x256x128_51_0_0 : ∀ a, (![51, 0, 0] : Fin 3 → Nat) a + S1x256x128.size a ≤ S80x256x128.size a
  inb_S1024x80_S1024x1_0_52 : ∀ a, (![0, 52] : Fin 2 → Nat) a + S1024x1.size a ≤ S1024x80.size a
  inb_S80x256x128_S1x256x128_52_0_0 : ∀ a, (![52, 0, 0] : Fin 3 → Nat) a + S1x256x128.size a ≤ S80x256x128.size a
  inb_S1024x80_S1024x1_0_53 : ∀ a, (![0, 53] : Fin 2 → Nat) a + S1024x1.size a ≤ S1024x80.size a
  inb_S80x256x128_S1x256x128_53_0_0 : ∀ a, (![53, 0, 0] : Fin 3 → Nat) a + S1x256x128.size a ≤ S80x256x128.size a
  inb_S1024x80_S1024x1_0_54 : ∀ a, (![0, 54] : Fin 2 → Nat) a + S1024x1.size a ≤ S1024x80.size a
  inb_S80x256x128_S1x256x128_54_0_0 : ∀ a, (![54, 0, 0] : Fin 3 → Nat) a + S1x256x128.size a ≤ S80x256x128.size a
  inb_S1024x80_S1024x1_0_55 : ∀ a, (![0, 55] : Fin 2 → Nat) a + S1024x1.size a ≤ S1024x80.size a
  inb_S80x256x128_S1x256x128_55_0_0 : ∀ a, (![55, 0, 0] : Fin 3 → Nat) a + S1x256x128.size a ≤ S80x256x128.size a
  inb_S1024x80_S1024x1_0_56 : ∀ a, (![0, 56] : Fin 2 → Nat) a + S1024x1.size a ≤ S1024x80.size a
  inb_S80x256x128_S1x256x128_56_0_0 : ∀ a, (![56, 0, 0] : Fin 3 → Nat) a + S1x256x128.size a ≤ S80x256x128.size a
  inb_S1024x80_S1024x1_0_57 : ∀ a, (![0, 57] : Fin 2 → Nat) a + S1024x1.size a ≤ S1024x80.size a
  inb_S80x256x128_S1x256x128_57_0_0 : ∀ a, (![57, 0, 0] : Fin 3 → Nat) a + S1x256x128.size a ≤ S80x256x128.size a
  inb_S1024x80_S1024x1_0_58 : ∀ a, (![0, 58] : Fin 2 → Nat) a + S1024x1.size a ≤ S1024x80.size a
  inb_S80x256x128_S1x256x128_58_0_0 : ∀ a, (![58, 0, 0] : Fin 3 → Nat) a + S1x256x128.size a ≤ S80x256x128.size a
  inb_S1024x80_S1024x1_0_59 : ∀ a, (![0, 59] : Fin 2 → Nat) a + S1024x1.size a ≤ S1024x80.size a
  inb_S80x256x128_S1x256x128_59_0_0 : ∀ a, (![59, 0, 0] : Fin 3 → Nat) a + S1x256x128.size a ≤ S80x256x128.size a
  inb_S1024x80_S1024x1_0_60 : ∀ a, (![0, 60] : Fin 2 → Nat) a + S1024x1.size a ≤ S1024x80.size a
  inb_S80x256x128_S1x256x128_60_0_0 : ∀ a, (![60, 0, 0] : Fin 3 → Nat) a + S1x256x128.size a ≤ S80x256x128.size a
  inb_S1024x80_S1024x1_0_61 : ∀ a, (![0, 61] : Fin 2 → Nat) a + S1024x1.size a ≤ S1024x80.size a
  inb_S80x256x128_S1x256x128_61_0_0 : ∀ a, (![61, 0, 0] : Fin 3 → Nat) a + S1x256x128.size a ≤ S80x256x128.size a
  inb_S1024x80_S1024x1_0_62 : ∀ a, (![0, 62] : Fin 2 → Nat) a + S1024x1.size a ≤ S1024x80.size a
  inb_S80x256x128_S1x256x128_62_0_0 : ∀ a, (![62, 0, 0] : Fin 3 → Nat) a + S1x256x128.size a ≤ S80x256x128.size a
  inb_S1024x80_S1024x1_0_63 : ∀ a, (![0, 63] : Fin 2 → Nat) a + S1024x1.size a ≤ S1024x80.size a
  inb_S80x256x128_S1x256x128_63_0_0 : ∀ a, (![63, 0, 0] : Fin 3 → Nat) a + S1x256x128.size a ≤ S80x256x128.size a
  inb_S1024x80_S1024x1_0_64 : ∀ a, (![0, 64] : Fin 2 → Nat) a + S1024x1.size a ≤ S1024x80.size a
  inb_S80x256x128_S1x256x128_64_0_0 : ∀ a, (![64, 0, 0] : Fin 3 → Nat) a + S1x256x128.size a ≤ S80x256x128.size a
  inb_S1024x80_S1024x1_0_65 : ∀ a, (![0, 65] : Fin 2 → Nat) a + S1024x1.size a ≤ S1024x80.size a
  inb_S80x256x128_S1x256x128_65_0_0 : ∀ a, (![65, 0, 0] : Fin 3 → Nat) a + S1x256x128.size a ≤ S80x256x128.size a
  inb_S1024x80_S1024x1_0_66 : ∀ a, (![0, 66] : Fin 2 → Nat) a + S1024x1.size a ≤ S1024x80.size a
  inb_S80x256x128_S1x256x128_66_0_0 : ∀ a, (![66, 0, 0] : Fin 3 → Nat) a + S1x256x128.size a ≤ S80x256x128.size a
  inb_S1024x80_S1024x1_0_67 : ∀ a, (![0, 67] : Fin 2 → Nat) a + S1024x1.size a ≤ S1024x80.size a
  inb_S80x256x128_S1x256x128_67_0_0 : ∀ a, (![67, 0, 0] : Fin 3 → Nat) a + S1x256x128.size a ≤ S80x256x128.size a
  inb_S1024x80_S1024x1_0_68 : ∀ a, (![0, 68] : Fin 2 → Nat) a + S1024x1.size a ≤ S1024x80.size a
  inb_S80x256x128_S1x256x128_68_0_0 : ∀ a, (![68, 0, 0] : Fin 3 → Nat) a + S1x256x128.size a ≤ S80x256x128.size a
  inb_S1024x80_S1024x1_0_69 : ∀ a, (![0, 69] : Fin 2 → Nat) a + S1024x1.size a ≤ S1024x80.size a
  inb_S80x256x128_S1x256x128_69_0_0 : ∀ a, (![69, 0, 0] : Fin 3 → Nat) a + S1x256x128.size a ≤ S80x256x128.size a
  inb_S1024x80_S1024x1_0_70 : ∀ a, (![0, 70] : Fin 2 → Nat) a + S1024x1.size a ≤ S1024x80.size a
  inb_S80x256x128_S1x256x128_70_0_0 : ∀ a, (![70, 0, 0] : Fin 3 → Nat) a + S1x256x128.size a ≤ S80x256x128.size a
  inb_S1024x80_S1024x1_0_71 : ∀ a, (![0, 71] : Fin 2 → Nat) a + S1024x1.size a ≤ S1024x80.size a
  inb_S80x256x128_S1x256x128_71_0_0 : ∀ a, (![71, 0, 0] : Fin 3 → Nat) a + S1x256x128.size a ≤ S80x256x128.size a
  inb_S1024x80_S1024x1_0_72 : ∀ a, (![0, 72] : Fin 2 → Nat) a + S1024x1.size a ≤ S1024x80.size a
  inb_S80x256x128_S1x256x128_72_0_0 : ∀ a, (![72, 0, 0] : Fin 3 → Nat) a + S1x256x128.size a ≤ S80x256x128.size a
  inb_S1024x80_S1024x1_0_73 : ∀ a, (![0, 73] : Fin 2 → Nat) a + S1024x1.size a ≤ S1024x80.size a
  inb_S80x256x128_S1x256x128_73_0_0 : ∀ a, (![73, 0, 0] : Fin 3 → Nat) a + S1x256x128.size a ≤ S80x256x128.size a
  inb_S1024x80_S1024x1_0_74 : ∀ a, (![0, 74] : Fin 2 → Nat) a + S1024x1.size a ≤ S1024x80.size a
  inb_S80x256x128_S1x256x128_74_0_0 : ∀ a, (![74, 0, 0] : Fin 3 → Nat) a + S1x256x128.size a ≤ S80x256x128.size a
  inb_S1024x80_S1024x1_0_75 : ∀ a, (![0, 75] : Fin 2 → Nat) a + S1024x1.size a ≤ S1024x80.size a
  inb_S80x256x128_S1x256x128_75_0_0 : ∀ a, (![75, 0, 0] : Fin 3 → Nat) a + S1x256x128.size a ≤ S80x256x128.size a
  inb_S1024x80_S1024x1_0_76 : ∀ a, (![0, 76] : Fin 2 → Nat) a + S1024x1.size a ≤ S1024x80.size a
  inb_S80x256x128_S1x256x128_76_0_0 : ∀ a, (![76, 0, 0] : Fin 3 → Nat) a + S1x256x128.size a ≤ S80x256x128.size a
  inb_S1024x80_S1024x1_0_77 : ∀ a, (![0, 77] : Fin 2 → Nat) a + S1024x1.size a ≤ S1024x80.size a
  inb_S80x256x128_S1x256x128_77_0_0 : ∀ a, (![77, 0, 0] : Fin 3 → Nat) a + S1x256x128.size a ≤ S80x256x128.size a
  inb_S1024x80_S1024x1_0_78 : ∀ a, (![0, 78] : Fin 2 → Nat) a + S1024x1.size a ≤ S1024x80.size a
  inb_S80x256x128_S1x256x128_78_0_0 : ∀ a, (![78, 0, 0] : Fin 3 → Nat) a + S1x256x128.size a ≤ S80x256x128.size a
  inb_S1024x80_S1024x1_0_79 : ∀ a, (![0, 79] : Fin 2 → Nat) a + S1024x1.size a ≤ S1024x80.size a
  inb_S80x256x128_S1x256x128_79_0_0 : ∀ a, (![79, 0, 0] : Fin 3 → Nat) a + S1x256x128.size a ≤ S80x256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x80.size a ≤ S8192x80.size a
  hwx0_0 : ∀ i : grid0.Coords, EltTy.bits .i32 = 32 ∨ (Rect.block (s := S8192x80) S1024x80.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x256x128.size a ≤ S80x256x128.size a
  hwx0_1 : ∀ i : grid0.Coords, EltTy.bits .bf16 = 32 ∨ (Rect.block (s := S80x256x128) S80x256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x256x128.size a ≤ S80x256x128.size a
  hwx0_2 : ∀ i : grid0.Coords, EltTy.bits .bf16 = 32 ∨ (Rect.block (s := S80x256x128) S80x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S8192x128.size a
  hwx0_10 : ∀ i : grid0.Coords, EltTy.bits .f32 = 32 ∨ (Rect.block (s := S8192x128) S1024x128.size (cc0_transform_10 i) (hinb0_10 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S80x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S80x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x80 : Shape := ⟨2, ![8192, 80]⟩
abbrev S20480x128 : Shape := ⟨2, ![20480, 128]⟩
abbrev S128 : Shape := ⟨1, ![128]⟩
abbrev S128x128 : Shape := ⟨2, ![128, 128]⟩
abbrev S80x256x128 : Shape := ⟨3, ![80, 256, 128]⟩
abbrev S80 : Shape := ⟨1, ![80]⟩
abbrev S_ : Shape := ⟨0, ![]⟩
abbrev S8192x80x1 : Shape := ⟨3, ![8192, 80, 1]⟩
abbrev S8192x80x2 : Shape := ⟨3, ![8192, 80, 2]⟩
abbrev S8192x80x128 : Shape := ⟨3, ![8192, 80, 128]⟩
abbrev S8192x128 : Shape := ⟨2, ![8192, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x80, .i32⟩
  | .hbm, ⟨1, _⟩ => ⟨S20480x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S80x256x128, .f32⟩
  | .hbm, ⟨10, _⟩ => ⟨S80, .i32⟩
  | .hbm, ⟨11, _⟩ => ⟨S_, .i32⟩
  | .hbm, ⟨12, _⟩ => ⟨S80, .i32⟩
  | .hbm, ⟨13, _⟩ => ⟨S80, .i1⟩
  | .hbm, ⟨14, _⟩ => ⟨S_, .i32⟩
  | .hbm, ⟨15, _⟩ => ⟨S80, .i32⟩
  | .hbm, ⟨16, _⟩ => ⟨S80, .i32⟩
  | .hbm, ⟨17, _⟩ => ⟨S80, .i32⟩
  | .hbm, ⟨18, _⟩ => ⟨S_, .i32⟩
  | .hbm, ⟨19, _⟩ => ⟨S8192x80, .i32⟩
  | .hbm, ⟨20, _⟩ => ⟨S8192x80, .i1⟩
  | .hbm, ⟨21, _⟩ => ⟨S_, .i32⟩
  | .hbm, ⟨22, _⟩ => ⟨S8192x80, .i32⟩
  | .hbm, ⟨23, _⟩ => ⟨S8192x80, .i32⟩
  | .hbm, ⟨24, _⟩ => ⟨S8192x80, .i32⟩
  | .hbm, ⟨25, _⟩ => ⟨S8192x80, .i32⟩
  | .hbm, ⟨26, _⟩ => ⟨S8192x80x1, .i32⟩
  | .hbm, ⟨27, _⟩ => ⟨S8192x80x1, .i32⟩
  | .hbm, ⟨28, _⟩ => ⟨S8192x80x2, .i32⟩
  | .hbm, ⟨29, _⟩ => ⟨S8192x80x128, .f32⟩
  | .hbm, ⟨30, _⟩ => ⟨S_, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .i1⟩
  | .hbm, ⟨38, _⟩ => ⟨S_, .f32⟩
  | .hbm, ⟨39, _⟩ => ⟨S8192x128, .f32⟩
  | .hbm, ⟨40, _⟩ => ⟨S8192x128, .i1⟩
  | .hbm, ⟨41, _⟩ => ⟨S_, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .i1⟩
  | .hbm, ⟨57, _⟩ => ⟨S_, .f32⟩
  | .hbm, ⟨58, _⟩ => ⟨S8192x128, .f32⟩
  | .hbm, ⟨59, _⟩ => ⟨S8192x128, .i1⟩
  | .hbm, ⟨60, _⟩ => ⟨S_, .f32⟩
  | .hbm, ⟨61, _⟩ => ⟨S_, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S_, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .i1⟩
  | .hbm, ⟨76, _⟩ => ⟨S_, .f32⟩
  | .hbm, ⟨77, _⟩ => ⟨S8192x128, .f32⟩
  | .hbm, ⟨78, _⟩ => ⟨S8192x128, .i1⟩
  | .hbm, ⟨79, _⟩ => ⟨S_, .f32⟩
  | .hbm, ⟨80, _⟩ => ⟨S_, .f32⟩
  | .hbm, ⟨81, _⟩ => ⟨S8192x128, .f32⟩
  | .hbm, ⟨82, _⟩ => ⟨S8192x128, .f32⟩
  | .hbm, ⟨83, _⟩ => ⟨S8192x128, .f32⟩
  | .hbm, ⟨84, _⟩ => ⟨S_, .f32⟩
  | .hbm, ⟨85, _⟩ => ⟨S8192x128, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S1x128, .f32⟩
  | .hbm, ⟨90, _⟩ => ⟨S8192x128, .f32⟩
  | .hbm, ⟨91, _⟩ => ⟨S8192x128, .f32⟩
  | .hbm, ⟨92, _⟩ => ⟨S_, .f32⟩
  | .hbm, ⟨93, _⟩ => ⟨S8192x128, .f32⟩
  | .hbm, ⟨94, _⟩ => ⟨S8192x128, .i1⟩
  | .hbm, ⟨95, _⟩ => ⟨S_, .f32⟩
  | .hbm, ⟨96, _⟩ => ⟨S8192x128, .f32⟩
  | .hbm, ⟨97, _⟩ => ⟨S8192x128, .i1⟩
  | .hbm, ⟨98, _⟩ => ⟨S_, .f32⟩
  | .hbm, ⟨99, _⟩ => ⟨S_, .f32⟩
  | .hbm, ⟨100, _⟩ => ⟨S8192x128, .f32⟩
  | .hbm, ⟨101, _⟩ => ⟨S8192x128, .f32⟩
  | .hbm, ⟨102, _⟩ => ⟨S8192x128, .f32⟩
  | .hbm, ⟨103, _⟩ => ⟨S_, .f32⟩
  | .hbm, ⟨104, _⟩ => ⟨S8192x128, .f32⟩
  | .hbm, ⟨105, _⟩ => ⟨S8192x128, .f32⟩
  | .hbm, ⟨106, _⟩ => ⟨S8192x128, .f32⟩
  | _, _ => ⟨S8192x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_cst_1 : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_v4 : Ref sig .tc := ⟨.hbm, 63, rfl⟩
abbrev main_call1_v5 : Ref sig .tc := ⟨.hbm, 64, rfl⟩
abbrev main_call1_cst_2 : Ref sig .tc := ⟨.hbm, 65, rfl⟩
abbrev main_call1_v6 : Ref sig .tc := ⟨.hbm, 66, rfl⟩
abbrev main_call1_v7 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_cst_1 : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_v4 : Ref sig .tc := ⟨.hbm, 82, rfl⟩
abbrev main_call2_v5 : Ref sig .tc := ⟨.hbm, 83, rfl⟩
abbrev main_call2_cst_2 : Ref sig .tc := ⟨.hbm, 84, rfl⟩
abbrev main_call2_v6 : Ref sig .tc := ⟨.hbm, 85, rfl⟩
abbrev main_call2_v7 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call3_cst : Ref sig .tc := ⟨.hbm, 92, rfl⟩
abbrev main_call3_v0 : Ref sig .tc := ⟨.hbm, 93, rfl⟩
abbrev main_call3_v1 : Ref sig .tc := ⟨.hbm, 94, rfl⟩
abbrev main_call3_cst_0 : Ref sig .tc := ⟨.hbm, 95, rfl⟩
abbrev main_call3_v2 : Ref sig .tc := ⟨.hbm, 96, rfl⟩
abbrev main_call3_v3 : Ref sig .tc := ⟨.hbm, 97, rfl⟩
abbrev main_call3_cst_1 : Ref sig .tc := ⟨.hbm, 98, rfl⟩
abbrev main_call3_call0_v0 : Ref sig .tc := ⟨.hbm, 99, rfl⟩
abbrev main_call3_call0_v1 : Ref sig .tc := ⟨.hbm, 100, rfl⟩
abbrev main_call3_v4 : Ref sig .tc := ⟨.hbm, 101, rfl⟩
abbrev main_call3_v5 : Ref sig .tc := ⟨.hbm, 102, rfl⟩
abbrev main_call3_cst_2 : Ref sig .tc := ⟨.hbm, 103, rfl⟩
abbrev main_call3_v6 : Ref sig .tc := ⟨.hbm, 104, rfl⟩
abbrev main_call3_v7 : Ref sig .tc := ⟨.hbm, 105, rfl⟩
abbrev main_v36 : Ref sig .tc := ⟨.hbm, 106, rfl⟩

abbrev nD : Nat := 1
abbrev τ : Topo := Topo.v7x

variable {F : FTy → Type} [FloatOps F]

class Facts₀ : Prop where
  shapeCasts_S20480x128_S80x256x128 : S20480x128.ShapeCasts S80x256x128
  bcast_S_S80 : S_.BroadcastsInDim S80 (![] : Fin 0 → Fin S80.rank)
  bcast_S_S8192x80 : S_.BroadcastsInDim S8192x80 (![] : Fin 0 → Fin S8192x80.rank)
  bcast_S80_S8192x80_1 : S80.BroadcastsInDim S8192x80 (![1] : Fin 1 → Fin S8192x80.rank)
  bcast_S8192x80_S8192x80x1_0_1 : S8192x80.BroadcastsInDim S8192x80x1 (![0, 1] : Fin 2 → Fin S8192x80x1.rank)
  concatenates_S8192x80x1_S8192x80x1_S8192x80x2_d2 : Shape.Concatenates [S8192x80x1, S8192x80x1] S8192x80x2 2
  reducesTo_S8192x80x128_S8192x128_d1 : S8192x80x128.ReducesTo [1] S8192x128
  h_S_ : 0 < S_.numel
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  gather_S80x256x128_S8192x80x2_S8192x80x128_2_01_n_n_01_2_11128_wf : GatherDims.WF S80x256x128 S8192x80x2 S8192x80x128 [2] [0, 1] [] [0, 1] [] 2 ![1, 1, 128]
  dot_S8192x128_S128x128_S8192x128_1_0_0_1_n_n_wf : DotDims.WF S8192x128 S128x128 S8192x128 [1] [0] [0] [1] [] []

variable [Facts₀]

def gather_S80x256x128_S8192x80x2_S8192x80x128_2_01_n_n_01_2_11128 : GatherDims S80x256x128 S8192x80x2 S8192x80x128 where
  offsetDims := [2]
  collapsedSliceDims := [0, 1]
  operandBatchingDims := []
  startIndicesBatchingDims := []
  startIndexMap := [0, 1]
  indexVectorDim := 2
  sliceSizes := ![1, 1, 128]
  wf := gather_S80x256x128_S8192x80x2_S8192x80x128_2_01_n_n_01_2_11128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.PreFacts.lean ====
/-
  What the precondition says of the arguments the proof uses: every entry of the embedding table is a real number,
  and every character of the message lies in [0, 256).
-/
import proofs.«423852_j8400956031557_3_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

namespace Cert.Pre_finite_inputs.Hand

open Cert.Pre_finite_inputs Cert.Pre_finite_inputs.Gen Idealize.ShloMosaic Idealize.ShloMosaic.ValueIdx Idealize.SL.Sem

/-- The rank-0 shape has one index. -/
instance : Subsingleton S_.Idx := ⟨fun a b => funext fun d => d.elim0⟩

/-- An extended real whose absolute value lies below +∞ is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The f32 pattern 0x7F800000 denotes +∞. -/
theorem ofBits_inf : Ideal.ofBits .f32 0x7F800000#32 = ⊤ := by
  simp [Ideal.ofBits, Ideal.ieee]

/-- A 32-bit word that is at least 0 and below 256, both read signed, has a value below 256. -/
theorem toNat_lt_of_signed (a : BitVec 32) (h0 : (0#32 : BitVec 32).toInt ≤ a.toInt) (h1 : a.toInt < (256#32 : BitVec 32).toInt) :
    a.toNat < 256 := by
  have e0 : (0#32 : BitVec 32).toInt = 0 := by decide
  have e1 : (256#32 : BitVec 32).toInt = 256 := by decide
  rw [e0] at h0; rw [e1] at h1
  rw [BitVec.toInt_eq_toNat_cond] at h0 h1
  have := a.isLt
  split at h0 <;> omega

/-- From the precondition at the ideal instance: the table's entries are reals, the characters are below 256. -/
theorem of_pre (msg : IVec S8192x80 32) (W1 : FVec Ideal S20480x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32)
    (h : Cert.Pre_finite_inputs.fn (F := Ideal) msg W1 b1 W2 b2 W3 b3 W4 b4 = fun _ => 1#1) :
    (∀ i, ∃ x : ℝ, W1 i = (x : EReal)) ∧ (∀ i, (msg i).toNat < 256) := by
  have h0 := congrFun h ValueIdx.ix0
  dsimp only [Cert.Pre_finite_inputs.fn, fn_part1, fn_part2] at h0
  obtain ⟨h1, hmsg⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨hW, -⟩ := IntOp.andi_eq_one.1 h7
  clear h0 h1 h2 h3 h4 h5 h6 h7
  refine ⟨fun i => ?_, fun i => ?_⟩
  · -- the comparison at entry i: |W1 i| < the value of the pattern 0x7F800000, which is +∞
    have e := Host.reduce_andi_all _ _ _ _ _ hW i
    have e' : Ideal.cmp .olt (max (W1 i) (-(W1 i))) (Ideal.ofBits .f32 0x7F800000#32) = 1#1 := e
    rw [ofBits_inf] at e'
    simp only [Ideal.cmp, StableHlo.Predicate.ofBool_eq_one_iff, decide_eq_true_eq] at e'
    exact real_of_abs_lt_top _ e'
  · -- the two signed comparisons at character i: 0 ≤ msg i and msg i < 256
    have e := Host.reduce_andi_all _ _ _ _ _ hmsg i
    have e' : IntOp.andi (IntOp.cmpi .sge (msg i) 0#32) (IntOp.cmpi .slt (msg i) 256#32) = 1#1 := e
    obtain ⟨ege, elt⟩ := IntOp.andi_eq_one.1 e'
    exact toNat_lt_of_signed _ (IntOp.cmpi_sge.1 ege) (IntOp.cmpi_slt.1 elt)

end Cert.Pre_finite_inputs.Hand

end
-- ==== Proof.RefTerm.lean ====
/-
  The reference's result as ONE pure term of its nine argument arrays, for any float instance: what the host
  operations of its @main compose to. The table is reshaped to 80 slabs of 256 rows; the start indices pair the
  position (an iota over 80, a negative one wrapped by 80) with the character (a negative one wrapped by 256); the
  gather reads one 128-wide row per (row, position); the rows are summed over the positions; then four times a bias is
  added and the exponential linear unit applied, with a matrix product before each of the last three.
-/
import proofs.«423852_j8400956031557_3_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The splat of the zero word over the result shape. -/
def zeros : FVec F S8192x128 .f32 := broadcastInDim S8192x128 ![] bcast_S_S8192x128 (constant S_ .f32 0x00000000#32)

/-- jax.nn.elu as the module's `@elu` composes it: `where (x > 0) x (1 · expm1 (where (x > 0) 0 x))`. -/
def eluTerm (x : FVec F S8192x128 .f32) : FVec F S8192x128 .f32 :=
  select (cmpf .ogt x zeros) x
    (mulf (broadcastInDim S8192x128 ![] bcast_S_S8192x128 (constant S_ .f32 0x3F800000#32))
      (Host.expm1 (select (cmpf .ogt x zeros)
        (broadcastInDim S8192x128 ![] bcast_S_S8192x128 (id (constant S_ .f32 0x00000000#32))) x)))

/-- The position half of the start indices: an iota over the 80 positions, a negative one wrapped by 80. -/
def posIdx : IVec S80 32 :=
  select (cmpi .slt (iotaInDim S80 32 0) (broadcastInDim S80 ![] bcast_S_S80 (constantI S_ 32 0#32)))
    (addi (iotaInDim S80 32 0) (broadcastInDim S80 ![] bcast_S_S80 (constantI S_ 32 80#32))) (iotaInDim S80 32 0)

/-- The character half of the start indices: the message, a negative character wrapped by 256. -/
def chIdx (msg : IVec S8192x80 32) : IVec S8192x80 32 :=
  select (cmpi .slt msg (broadcastInDim S8192x80 ![] bcast_S_S8192x80 (constantI S_ 32 0#32)))
    (addi msg (broadcastInDim S8192x80 ![] bcast_S_S8192x80 (constantI S_ 32 256#32))) msg

/-- The start indices `[8192, 80, 2]`: (position, character) per message entry. -/
def startIdx (msg : IVec S8192x80 32) : IVec S8192x80x2 32 :=
  concatenate S8192x80x2 2
    [⟨S8192x80x1, broadcastInDim S8192x80x1 ![0, 1] bcast_S8192x80_S8192x80x1_0_1
        (broadcastInDim S8192x80 ![1] bcast_S80_S8192x80_1 posIdx)⟩,
     ⟨S8192x80x1, broadcastInDim S8192x80x1 ![0, 1] bcast_S8192x80_S8192x80x1_0_1 (chIdx msg)⟩]
    concatenates_S8192x80x1_S8192x80x1_S8192x80x2_d2

/-- The embedding: the gathered rows summed over the positions. -/
def embTerm (msg : IVec S8192x80 32) (W1 : FVec F S20480x128 .f32) : FVec F S8192x128 .f32 :=
  Host.reduceAdd
    (Host.gather gather_S80x256x128_S8192x80x2_S8192x80x128_2_01_n_n_01_2_11128
      (shapeCast S80x256x128 W1 shapeCasts_S20480x128_S80x256x128) (startIdx msg))
    (constant S_ .f32 0x00000000#32) reducesTo_S8192x80x128_S8192x128_d1 h_S_

/-- A bias `[128]` laid along every row of the result. -/
def biasRows (b : FVec F S128 .f32) : FVec F S8192x128 .f32 :=
  broadcastInDim S8192x128 ![0, 1] bcast_S1x128_S8192x128_0_1 (broadcastInDim S1x128 ![1] bcast_S128_S1x128_1 b)

/-- A dense layer: the matrix product, the bias, the unit. -/
def denseTerm (h : FVec F S8192x128 .f32) (W : FVec F S128x128 .f32) (b : FVec F S128 .f32) : FVec F S8192x128 .f32 :=
  eluTerm (addf (Host.dotGeneral dot_S8192x128_S128x128_S8192x128_1_0_0_1_n_n none h W) (biasRows b))

/-- The reference's result as a term of its arguments. -/
def refTerm (msg : IVec S8192x80 32) (W1 : FVec F S20480x128 .f32) (b1 : FVec F S128 .f32)
    (W2 : FVec F S128x128 .f32) (b2 : FVec F S128 .f32) (W3 : FVec F S128x128 .f32) (b3 : FVec F S128 .f32)
    (W4 : FVec F S128x128 .f32) (b4 : FVec F S128 .f32) : FVec F S8192x128 .f32 :=
  denseTerm (denseTerm (denseTerm (eluTerm (addf (embTerm msg W1) (biasRows b1))) W2 b2) W3 b3) W4 b4

end Cert.ReferenceIdeal.Hand

end
-- ==== Proof.RefRun.lean ====
/-
  The reference's run: @main is a straight line of host operations (the functions jax outlined, `elu` and the two
  `where`s, unfolded at their calls), so every weakly fair execution terminates with the result buffer at the
  operations' composed term of the arguments, and the arguments unchanged.
-/
import proofs.«423852_j8400956031557_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first 19 operations: the table reshaped to 80 slabs of 256 rows; the position iota and the characters, each
    wrapped where negative; the positions laid along every row; both given a last axis of length one. -/
abbrev idx : List (HloOp τ sig (Elt F)) :=
  [ reshape main_arg1 main_v0 rfl shapeCasts_S20480x128_S80x256x128,
    nullary main_v1 (iotaInDim S80 32 0),
    nullary main_c (constantI S_ 32 0#32),
    unary main_c main_v2 (broadcastInDim S80 ![] bcast_S_S80 : (⟨S_, .i32⟩ : BufTy).Contents (Elt F) → (⟨S80, .i32⟩ : BufTy).Contents (Elt F)),
    binary main_v1 main_v2 main_v3 (cmpi .slt : (⟨S80, .i32⟩ : BufTy).Contents (Elt F) → (⟨S80, .i32⟩ : BufTy).Contents (Elt F) → (⟨S80, .i1⟩ : BufTy).Contents (Elt F)),
    nullary main_c_0 (constantI S_ 32 80#32),
    unary main_c_0 main_v4 (broadcastInDim S80 ![] bcast_S_S80 : (⟨S_, .i32⟩ : BufTy).Contents (Elt F) → (⟨S80, .i32⟩ : BufTy).Contents (Elt F)),
    binary main_v1 main_v4 main_v5 (addi : (⟨S80, .i32⟩ : BufTy).Contents (Elt F) → (⟨S80, .i32⟩ : BufTy).Contents (Elt F) → (⟨S80, .i32⟩ : BufTy).Contents (Elt F)),
    ternary main_v3 main_v5 main_v1 main_v6 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    nullary main_c_1 (constantI S_ 32 0#32),
    unary main_c_1 main_v7 (broadcastInDim S8192x80 ![] bcast_S_S8192x80 : (⟨S_, .i32⟩ : BufTy).Contents (Elt F) → (⟨S8192x80, .i32⟩ : BufTy).Contents (Elt F)),
    binary main_arg0 main_v7 main_v8 (cmpi .slt : (⟨S8192x80, .i32⟩ : BufTy).Contents (Elt F) → (⟨S8192x80, .i32⟩ : BufTy).Contents (Elt F) → (⟨S8192x80, .i1⟩ : BufTy).Contents (Elt F)),
    nullary main_c_2 (constantI S_ 32 256#32),
    unary main_c_2 main_v9 (broadcastInDim S8192x80 ![] bcast_S_S8192x80 : (⟨S_, .i32⟩ : BufTy).Contents (Elt F) → (⟨S8192x80, .i32⟩ : BufTy).Contents (Elt F)),
    binary main_arg0 main_v9 main_v10 (addi : (⟨S8192x80, .i32⟩ : BufTy).Contents (Elt F) → (⟨S8192x80, .i32⟩ : BufTy).Contents (Elt F) → (⟨S8192x80, .i32⟩ : BufTy).Contents (Elt F)),
    ternary main_v8 main_v10 main_arg0 main_v11 (select : (⟨S8192x80, .i1⟩ : BufTy).Contents (Elt F) → (⟨S8192x80, .i32⟩ : BufTy).Contents (Elt F) → (⟨S8192x80, .i32⟩ : BufTy).Contents (Elt F) → (⟨S8192x80, .i32⟩ : BufTy).Contents (Elt F)),
    unary main_v6 main_v12 (broadcastInDim S8192x80 ![1] bcast_S80_S8192x80_1 : (⟨S80, .i32⟩ : BufTy).Contents (Elt F) → (⟨S8192x80, .i32⟩ : BufTy).Contents (Elt F)),
    unary main_v12 main_v13 (broadcastInDim S8192x80x1 ![0, 1] bcast_S8192x80_S8192x80x1_0_1 : (⟨S8192x80, .i32⟩ : BufTy).Contents (Elt F) → (⟨S8192x80x1, .i32⟩ : BufTy).Contents (Elt F)),
    unary main_v11 main_v14 (broadcastInDim S8192x80x1 ![0, 1] bcast_S8192x80_S8192x80x1_0_1 : (⟨S8192x80, .i32⟩ : BufTy).Contents (Elt F) → (⟨S8192x80x1, .i32⟩ : BufTy).Contents (Elt F)) ]

/-- The next 7: the two laid side by side as start indices, the gather, the zero, the sum over the positions, the
    first bias laid along a row, then along every row, the sum. -/
abbrev emb : List (HloOp τ sig (Elt F)) :=
  [ binary main_v13 main_v14 main_v15 ((fun a b => concatenate S8192x80x2 2 [⟨S8192x80x1, a⟩, ⟨S8192x80x1, b⟩] concatenates_S8192x80x1_S8192x80x1_S8192x80x2_d2) : (⟨S8192x80x1, .i32⟩ : BufTy).Contents (Elt F) → (⟨S8192x80x1, .i32⟩ : BufTy).Contents (Elt F) → (⟨S8192x80x2, .i32⟩ : BufTy).Contents (Elt F)),
    binary main_v0 main_v15 main_v16 ((fun x i => Host.gather gather_S80x256x128_S8192x80x2_S8192x80x128_2_01_n_n_01_2_11128 x i) : (⟨S80x256x128, .f32⟩ : BufTy).Contents (Elt F) → (⟨S8192x80x2, .i32⟩ : BufTy).Contents (Elt F) → (⟨S8192x80x128, .f32⟩ : BufTy).Contents (Elt F)),
    nullary main_cst (constant S_ .f32 0x00000000#32),
    binary main_v16 main_cst main_v17 ((fun x v => Host.reduceAdd x v reducesTo_S8192x80x128_S8192x128_d1 h_S_) : (⟨S8192x80x128, .f32⟩ : BufTy).Contents (Elt F) → (⟨S_, .f32⟩ : BufTy).Contents (Elt F) → (⟨S8192x128, .f32⟩ : BufTy).Contents (Elt F)),
    unary main_arg2 main_v18 (broadcastInDim S1x128 ![1] bcast_S128_S1x128_1 : (⟨S128, .f32⟩ : BufTy).Contents (Elt F) → (⟨S1x128, .f32⟩ : BufTy).Contents (Elt F)),
    unary main_v18 main_v19 (broadcastInDim S8192x128 ![0, 1] bcast_S1x128_S8192x128_0_1 : (⟨S1x128, .f32⟩ : BufTy).Contents (Elt F) → (⟨S8192x128, .f32⟩ : BufTy).Contents (Elt F)),
    binary main_v17 main_v19 main_v20 (addf : (⟨S8192x128, .f32⟩ : BufTy).Contents (Elt F) → (⟨S8192x128, .f32⟩ : BufTy).Contents (Elt F) → (⟨S8192x128, .f32⟩ : BufTy).Contents (Elt F)) ]

/-- The 15 operations of the first `elu`, over the first call's buffers: the zero, its splat and the comparison,
    twice; the zero again and `_where`'s three (the zero converted to its own type, its splat, the select); the
    exponential less one, the one and its splat, the product; `_where_0`'s select. -/
abbrev elu0 : List (HloOp τ sig (Elt F)) :=
  [ TRef.nullary main_call0.cst (constant S_ .f32 0x00000000#32),
    TRef.unary main_call0.cst main_call0.v0 (broadcastInDim S8192x128 ![] bcast_S_S8192x128),
    TRef.binary (.of main_v20) main_call0.v0 main_call0.v1 (cmpf .ogt),
    TRef.nullary main_call0.cst_0 (constant S_ .f32 0x00000000#32),
    TRef.unary main_call0.cst_0 main_call0.v2 (broadcastInDim S8192x128 ![] bcast_S_S8192x128),
    TRef.binary (.of main_v20) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x128 ![] bcast_S_S8192x128),
    TRef.ternary main_call0.v3 main_call0.call0.v1 (.of main_v20) main_call0.call0.v2 select,
    TRef.unary main_call0.call0.v2 main_call0.v5 Host.expm1,
    TRef.nullary main_call0.cst_2 (constant S_ .f32 0x3F800000#32),
    TRef.unary main_call0.cst_2 main_call0.v6 (broadcastInDim S8192x128 ![] bcast_S_S8192x128),
    TRef.binary main_call0.v6 main_call0.v5 main_call0.v7 mulf,
    TRef.ternary main_call0.v1 (.of main_v20) main_call0.v7 main_call0.call1.v0 select ]

/-- The 19 operations of the second layer: the matrix product, the bias laid along a row, then along every row, the
    sum; then `elu`'s 15 over the second call's buffers. -/
abbrev layer1 : List (HloOp τ sig (Elt F)) :=
  [ binary main_v21 main_arg3 main_v22 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S8192x128 ![0, 1] bcast_S1x128_S8192x128_0_1 : (⟨S1x128, .f32⟩ : BufTy).Contents (Elt F) → (⟨S8192x128, .f32⟩ : BufTy).Contents (Elt F)),
    binary main_v22 main_v24 main_v25 (addf : (⟨S8192x128, .f32⟩ : BufTy).Contents (Elt F) → (⟨S8192x128, .f32⟩ : BufTy).Contents (Elt F) → (⟨S8192x128, .f32⟩ : BufTy).Contents (Elt F)),
    TRef.nullary main_call1.cst (constant S_ .f32 0x00000000#32),
    TRef.unary main_call1.cst main_call1.v0 (broadcastInDim S8192x128 ![] bcast_S_S8192x128),
    TRef.binary (.of main_v25) main_call1.v0 main_call1.v1 (cmpf .ogt),
    TRef.nullary main_call1.cst_0 (constant S_ .f32 0x00000000#32),
    TRef.unary main_call1.cst_0 main_call1.v2 (broadcastInDim S8192x128 ![] bcast_S_S8192x128),
    TRef.binary (.of main_v25) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8192x128 ![] bcast_S_S8192x128),
    TRef.ternary main_call1.v3 main_call1.call0.v1 (.of main_v25) main_call1.call0.v2 select,
    TRef.unary main_call1.call0.v2 main_call1.v5 Host.expm1,
    TRef.nullary main_call1.cst_2 (constant S_ .f32 0x3F800000#32),
    TRef.unary main_call1.cst_2 main_call1.v6 (broadcastInDim S8192x128 ![] bcast_S_S8192x128),
    TRef.binary main_call1.v6 main_call1.v5 main_call1.v7 mulf,
    TRef.ternary main_call1.v1 (.of main_v25) main_call1.v7 main_call1.call1.v0 select ]

/-- The 19 operations of the third layer, over the third call's buffers. -/
abbrev layer2 : List (HloOp τ sig (Elt F)) :=
  [ binary main_v26 main_arg5 main_v27 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg6 main_v28 (broadcastInDim S1x128 ![1] bcast_S128_S1x128_1 : (⟨S128, .f32⟩ : BufTy).Contents (Elt F) → (⟨S1x128, .f32⟩ : BufTy).Contents (Elt F)),
    unary main_v28 main_v29 (broadcastInDim S8192x128 ![0, 1] bcast_S1x128_S8192x128_0_1 : (⟨S1x128, .f32⟩ : BufTy).Contents (Elt F) → (⟨S8192x128, .f32⟩ : BufTy).Contents (Elt F)),
    binary main_v27 main_v29 main_v30 (addf : (⟨S8192x128, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v30) main_call2.v0 main_call2.v1 (cmpf .ogt),
    TRef.nullary main_call2.cst_0 (constant S_ .f32 0x00000000#32),
    TRef.unary main_call2.cst_0 main_call2.v2 (broadcastInDim S8192x128 ![] bcast_S_S8192x128),
    TRef.binary (.of main_v30) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x128 ![] bcast_S_S8192x128),
    TRef.ternary main_call2.v3 main_call2.call0.v1 (.of main_v30) main_call2.call0.v2 select,
    TRef.unary main_call2.call0.v2 main_call2.v5 Host.expm1,
    TRef.nullary main_call2.cst_2 (constant S_ .f32 0x3F800000#32),
    TRef.unary main_call2.cst_2 main_call2.v6 (broadcastInDim S8192x128 ![] bcast_S_S8192x128),
    TRef.binary main_call2.v6 main_call2.v5 main_call2.v7 mulf,
    TRef.ternary main_call2.v1 (.of main_v30) main_call2.v7 main_call2.call1.v0 select ]

/-- The 19 operations of the fourth layer, over the fourth call's buffers. -/
abbrev layer3 : List (HloOp τ sig (Elt F)) :=
  [ binary main_v31 main_arg7 main_v32 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg8 main_v33 (broadcastInDim S1x128 ![1] bcast_S128_S1x128_1 : (⟨S128, .f32⟩ : BufTy).Contents (Elt F) → (⟨S1x128, .f32⟩ : BufTy).Contents (Elt F)),
    unary main_v33 main_v34 (broadcastInDim S8192x128 ![0, 1] bcast_S1x128_S8192x128_0_1 : (⟨S1x128, .f32⟩ : BufTy).Contents (Elt F) → (⟨S8192x128, .f32⟩ : BufTy).Contents (Elt F)),
    binary main_v32 main_v34 main_v35 (addf : (⟨S8192x128, .f32⟩ : BufTy).Contents (Elt F) → (⟨S8192x128, .f32⟩ : BufTy).Contents (Elt F) → (⟨S8192x128, .f32⟩ : BufTy).Contents (Elt F)),
    TRef.nullary main_call3.cst (constant S_ .f32 0x00000000#32),
    TRef.unary main_call3.cst main_call3.v0 (broadcastInDim S8192x128 ![] bcast_S_S8192x128),
    TRef.binary (.of main_v35) main_call3.v0 main_call3.v1 (cmpf .ogt),
    TRef.nullary main_call3.cst_0 (constant S_ .f32 0x00000000#32),
    TRef.unary main_call3.cst_0 main_call3.v2 (broadcastInDim S8192x128 ![] bcast_S_S8192x128),
    TRef.binary (.of main_v35) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S8192x128 ![] bcast_S_S8192x128),
    TRef.ternary main_call3.v3 main_call3.call0.v1 (.of main_v35) main_call3.call0.v2 select,
    TRef.unary main_call3.call0.v2 main_call3.v5 Host.expm1,
    TRef.nullary main_call3.cst_2 (constant S_ .f32 0x3F800000#32),
    TRef.unary main_call3.cst_2 main_call3.v6 (broadcastInDim S8192x128 ![] bcast_S_S8192x128),
    TRef.binary main_call3.v6 main_call3.v5 main_call3.v7 mulf,
    TRef.ternary main_call3.v1 (.of main_v35) main_call3.v7 main_call3.call1.v0 select ]

/-- @main's 98 operations in order, the calls unfolded. -/
abbrev ops : List (HloOp τ sig (Elt F)) := idx ++ emb ++ elu0 ++ layer1 ++ layer2 ++ layer3

set_option maxRecDepth 8192 in
/-- @main is that straight line: with the functions' bodies unfolded at their calls and the records at their fields,
    both sides are the same chain of steps once sequencing is computed. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., nullary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

/-- The contents after two lines run one after the other: the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stretch's result, from any contents -/

/-- The table after the first stretch: reshaped. -/
theorem idx_v0 (V : Valuation τ sig (Elt F)) :
    after idx V (main_v0 : DevRef τ sig) = shapeCast S80x256x128 (V (main_arg1 : DevRef τ sig)) shapeCasts_S20480x128_S80x256x128 := by
  after_results_simp
  rfl

/-- The positions after the first stretch: wrapped, laid along every row, given a last axis. -/
theorem idx_v13 (V : Valuation τ sig (Elt F)) :
    after idx V (main_v13 : DevRef τ sig)
      = broadcastInDim S8192x80x1 ![0, 1] bcast_S8192x80_S8192x80x1_0_1
          (broadcastInDim S8192x80 ![1] bcast_S80_S8192x80_1 posIdx) := by
  after_results_simp
  rfl

/-- The characters after the first stretch: wrapped, given a last axis. -/
theorem idx_v14 (V : Valuation τ sig (Elt F)) :
    after idx V (main_v14 : DevRef τ sig)
      = broadcastInDim S8192x80x1 ![0, 1] bcast_S8192x80_S8192x80x1_0_1 (chIdx (V (main_arg0 : DevRef τ sig))) := by
  after_results_simp
  rfl

theorem idx_arg2 (V : Valuation τ sig (Elt F)) : after idx V (main_arg2 : DevRef τ sig) = (V (main_arg2 : DevRef τ sig)) := by after_results_simp

/-- The second stretch: the gather at the two index halves side by side, summed over the positions, plus the bias. -/
theorem emb_out (V : Valuation τ sig (Elt F)) :
    after emb V (main_v20 : DevRef τ sig)
      = addf (Host.reduceAdd
            (Host.gather gather_S80x256x128_S8192x80x2_S8192x80x128_2_01_n_n_01_2_11128 (V (main_v0 : DevRef τ sig))
              (concatenate S8192x80x2 2 [⟨S8192x80x1, V (main_v13 : DevRef τ sig)⟩, ⟨S8192x80x1, V (main_v14 : DevRef τ sig)⟩]
                concatenates_S8192x80x1_S8192x80x1_S8192x80x2_d2))
            (constant S_ .f32 0x00000000#32) reducesTo_S8192x80x128_S8192x128_d1 h_S_)
          (biasRows (V (main_arg2 : DevRef τ sig))) := by
  after_results_simp
  rfl

/-- The first two stretches: the embedding plus the first bias. -/
theorem pre_out (V : Valuation τ sig (Elt F)) : after (idx ++ emb) V (main_v20 : DevRef τ sig) = addf (embTerm (V (main_arg0 : DevRef τ sig)) (V (main_arg1 : DevRef τ sig))) (biasRows (V (main_arg2 : DevRef τ sig))) := by
  rw [after_app, emb_out, idx_v0, idx_v13, idx_v14, idx_arg2]
  rfl

/-- One `elu`, over the first call's buffers. -/
theorem elu0_out (V : Valuation τ sig (Elt F)) : after elu0 V (main_v21 : DevRef τ sig) = eluTerm (V (main_v20 : DevRef τ sig)) := by
  after_results_simp
  rfl

/-- A dense layer, over each later call's buffers. -/
theorem layer1_out (V : Valuation τ sig (Elt F)) :
    after layer1 V (main_v26 : DevRef τ sig) = denseTerm (V (main_v21 : DevRef τ sig)) (V (main_arg3 : DevRef τ sig)) (V (main_arg4 : DevRef τ sig)) := by
  after_results_simp
  rfl

theorem layer2_out (V : Valuation τ sig (Elt F)) :
    after layer2 V (main_v31 : DevRef τ sig) = denseTerm (V (main_v26 : DevRef τ sig)) (V (main_arg5 : DevRef τ sig)) (V (main_arg6 : DevRef τ sig)) := by
  after_results_simp
  rfl

theorem layer3_out (V : Valuation τ sig (Elt F)) :
    after layer3 V (main_v36 : DevRef τ sig) = denseTerm (V (main_v31 : DevRef τ sig)) (V (main_arg7 : DevRef τ sig)) (V (main_arg8 : DevRef τ sig)) := by
  after_results_simp
  rfl

/-! ## The stretches composed: no operation writes an argument, so each layer reads its weights as launched -/

theorem res1 (V : Valuation τ sig (Elt F)) : after (idx ++ emb ++ elu0) V (main_v21 : DevRef τ sig) = eluTerm (addf (embTerm (V (main_arg0 : DevRef τ sig)) (V (main_arg1 : DevRef τ sig))) (biasRows (V (main_arg2 : DevRef τ sig)))) := by
  rw [after_app, elu0_out, pre_out]

theorem keep1_arg3 (V : Valuation τ sig (Elt F)) : after (idx ++ emb ++ elu0) V (main_arg3 : DevRef τ sig) = (V (main_arg3 : DevRef τ sig)) := by
  rw [after_app, after_app]; after_results_simp
theorem keep1_arg4 (V : Valuation τ sig (Elt F)) : after (idx ++ emb ++ elu0) V (main_arg4 : DevRef τ sig) = (V (main_arg4 : DevRef τ sig)) := by
  rw [after_app, after_app]; after_results_simp

theorem res2 (V : Valuation τ sig (Elt F)) : after (idx ++ emb ++ elu0 ++ layer1) V (main_v26 : DevRef τ sig) = denseTerm (eluTerm (addf (embTerm (V (main_arg0 : DevRef τ sig)) (V (main_arg1 : DevRef τ sig))) (biasRows (V (main_arg2 : DevRef τ sig))))) (V (main_arg3 : DevRef τ sig)) (V (main_arg4 : DevRef τ sig)) := by
  rw [after_app, layer1_out, res1, keep1_arg3, keep1_arg4]

theorem keep2_arg5 (V : Valuation τ sig (Elt F)) : after (idx ++ emb ++ elu0 ++ layer1) V (main_arg5 : DevRef τ sig) = (V (main_arg5 : DevRef τ sig)) := by
  rw [after_app, after_app, after_app]; after_results_simp
theorem keep2_arg6 (V : Valuation τ sig (Elt F)) : after (idx ++ emb ++ elu0 ++ layer1) V (main_arg6 : DevRef τ sig) = (V (main_arg6 : DevRef τ sig)) := by
  rw [after_app, after_app, after_app]; after_results_simp

theorem res3 (V : Valuation τ sig (Elt F)) : after (idx ++ emb ++ elu0 ++ layer1 ++ layer2) V (main_v31 : DevRef τ sig) = denseTerm (denseTerm (eluTerm (addf (embTerm (V (main_arg0 : DevRef τ sig)) (V (main_arg1 : DevRef τ sig))) (biasRows (V (main_arg2 : DevRef τ sig))))) (V (main_arg3 : DevRef τ sig)) (V (main_arg4 : DevRef τ sig))) (V (main_arg5 : DevRef τ sig)) (V (main_arg6 : DevRef τ sig)) := by
  rw [after_app, layer2_out, res2, keep2_arg5, keep2_arg6]

theorem keep3_arg7 (V : Valuation τ sig (Elt F)) : after (idx ++ emb ++ elu0 ++ layer1 ++ layer2) V (main_arg7 : DevRef τ sig) = (V (main_arg7 : DevRef τ sig)) := by
  rw [after_app, after_app, after_app, after_app]; after_results_simp
theorem keep3_arg8 (V : Valuation τ sig (Elt F)) : after (idx ++ emb ++ elu0 ++ layer1 ++ layer2) V (main_arg8 : DevRef τ sig) = (V (main_arg8 : DevRef τ sig)) := by
  rw [after_app, after_app, after_app, after_app]; after_results_simp

/-- The result buffer after the whole line: the reference's term of the arguments. -/
theorem out_eq (V : Valuation τ sig (Elt F)) :
    after ops V (main_v36 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_app, layer3_out, res3, keep3_arg7, keep3_arg8]
  rfl

theorem arg0_eq (V : Valuation τ sig (Elt F)) : after ops V (main_arg0 : DevRef τ sig) = (V (main_arg0 : DevRef τ sig)) := by
  rw [after_app, after_app, after_app, after_app, after_app]; after_results_simp
theorem arg1_eq (V : Valuation τ sig (Elt F)) : after ops V (main_arg1 : DevRef τ sig) = (V (main_arg1 : DevRef τ sig)) := by
  rw [after_app, after_app, after_app, after_app, after_app]; after_results_simp
theorem arg2_eq (V : Valuation τ sig (Elt F)) : after ops V (main_arg2 : DevRef τ sig) = (V (main_arg2 : DevRef τ sig)) := by
  rw [after_app, after_app, after_app, after_app, after_app]; after_results_simp
theorem arg3_eq (V : Valuation τ sig (Elt F)) : after ops V (main_arg3 : DevRef τ sig) = (V (main_arg3 : DevRef τ sig)) := by
  rw [after_app, after_app, after_app, after_app, after_app]; after_results_simp
theorem arg4_eq (V : Valuation τ sig (Elt F)) : after ops V (main_arg4 : DevRef τ sig) = (V (main_arg4 : DevRef τ sig)) := by
  rw [after_app, after_app, after_app, after_app, after_app]; after_results_simp
theorem arg5_eq (V : Valuation τ sig (Elt F)) : after ops V (main_arg5 : DevRef τ sig) = (V (main_arg5 : DevRef τ sig)) := by
  rw [after_app, after_app, after_app, after_app, after_app]; after_results_simp
theorem arg6_eq (V : Valuation τ sig (Elt F)) : after ops V (main_arg6 : DevRef τ sig) = (V (main_arg6 : DevRef τ sig)) := by
  rw [after_app, after_app, after_app, after_app, after_app]; after_results_simp
theorem arg7_eq (V : Valuation τ sig (Elt F)) : after ops V (main_arg7 : DevRef τ sig) = (V (main_arg7 : DevRef τ sig)) := by
  rw [after_app, after_app, after_app, after_app, after_app]; after_results_simp
theorem arg8_eq (V : Valuation τ sig (Elt F)) : after ops V (main_arg8 : DevRef τ sig) = (V (main_arg8 : DevRef τ sig)) := by
  rw [after_app, after_app, after_app, after_app, after_app]; after_results_simp

/-- On every device, for any float values, from any memory with zero counters: every weakly fair execution of
    @main terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v36).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.Hand

end
-- ==== Proof.Spec.lean ====
/-
  The encoder as ONE function of its argument arrays, index by index, on the extended reals.

  A message is 8192 rows of 80 characters, each a 32-bit word. Position `p` of a row holding character `ch`
  selects row `256 · p + ch` of the embedding table `W1` ([20480, 128], read as 80 slabs of 256 rows). The
  first hidden layer is the sum over the 80 positions of the selected rows plus the bias `b1`, through the
  exponential linear unit; three dense layers `elu (h · W + b)` follow. A character is reduced modulo 256 so
  that the function is total: on messages whose characters lie in [0, 256) the reduction changes nothing.
-/
import Idealize.ShloMosaic.PureOps.Ideal
import Idealize.ShloMosaic.Lib.ValueIdx

noncomputable section

open scoped BigOperators

namespace Cert.Encoder

open Idealize.ShloMosaic Idealize.ShloMosaic.ValueIdx

/-- The message: 8192 rows of 80 characters. -/
abbrev SMsg : Shape := ⟨2, ![8192, 80]⟩
/-- The embedding table: 80 slabs of 256 rows, 128 columns. -/
abbrev STab : Shape := ⟨2, ![20480, 128]⟩
/-- A bias. -/
abbrev SVec : Shape := ⟨1, ![128]⟩
/-- A dense layer's weights. -/
abbrev SMat : Shape := ⟨2, ![128, 128]⟩
/-- The result. -/
abbrev SOut : Shape := ⟨2, ![8192, 128]⟩

/-- The exponential linear unit on the extended reals: the identity on the positives, `eˣ − 1` elsewhere. -/
def elu (x : EReal) : EReal := if 0 < x then x else Ideal.exp x - 1

/-- The table row that character `ch` at position `p` selects: row `ch mod 256` of slab `p`. -/
def tabRow (p : Fin 80) (ch : BitVec 32) : Fin 20480 :=
  ⟨p.val * 256 + ch.toNat % 256, by have := p.isLt; omega⟩

/-- Row `b`'s embedding at column `n`: the sum over the 80 positions of the selected table rows. -/
def embSum (msg : IVec SMsg 32) (W1 : FVec Ideal STab .f32) (b : Fin 8192) (n : Fin 128) : EReal :=
  ∑ p : Fin 80, W1 (ix2 (tabRow p (msg (ix2 b p))) n)

/-- The first hidden layer: the embedding plus its bias, through the unit. -/
def hidden (msg : IVec SMsg 32) (W1 : FVec Ideal STab .f32) (b1 : FVec Ideal SVec .f32) (b : Fin 8192) (n : Fin 128) : EReal :=
  elu (embSum msg W1 b n + b1 (ix1 n))

/-- A dense layer over the rows of `h` (rows indexed by any type: the whole batch, or one block of it):
    `elu (h · W + bias)`. -/
def dense {ρ : Type} (h : ρ → Fin 128 → EReal) (W : FVec Ideal SMat .f32) (bias : FVec Ideal SVec .f32)
    (b : ρ) (n : Fin 128) : EReal :=
  elu ((∑ k : Fin 128, h b k * W (ix2 k n)) + bias (ix1 n))

/-- The encoder: the embedding layer and three dense layers, at result index `i`. -/
def encoder (msg : IVec SMsg 32) (W1 : FVec Ideal STab .f32) (b1 : FVec Ideal SVec .f32)
    (W2 : FVec Ideal SMat .f32) (b2 : FVec Ideal SVec .f32) (W3 : FVec Ideal SMat .f32) (b3 : FVec Ideal SVec .f32)
    (W4 : FVec Ideal SMat .f32) (b4 : FVec Ideal SVec .f32) : FVec Ideal SOut .f32 :=
  fun i => dense (dense (dense (hidden msg W1 b1) W2 b2) W3 b3) W4 b4 (i 0) (i 1)

/-- A character in [0, 256) is its own residue. -/
theorem tabRow_val (p : Fin 80) (ch : BitVec 32) (h : ch.toNat < 256) : (tabRow p ch).val = p.val * 256 + ch.toNat := by
  simp only [tabRow, Nat.mod_eq_of_lt h]

end Cert.Encoder

end
-- ==== Proof.RefValue.lean ====
/-
  The reference's term at the ideal instance is the encoder, index by index, on messages whose characters lie in
  [0, 256): there neither the wrap of a negative character nor the gather's clamp changes a start index, so the
  gather reads row `256 · p + ch` of the table; the host's sum over the positions and its matrix products are the
  plain sums; `1 · expm1 x` is `eˣ − 1`.
-/
import proofs.«423852_j8400956031557_3_alg».proof.Proof.RefTerm
import proofs.«423852_j8400956031557_3_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Idealize.SL.Sem

/-! ## The unit, the bias rows and the matrix product at an index -/

/-- The word of `1.0` is the extended real one. -/
theorem ofBits_one_f32 : Ideal.ofBits .f32 0x3F800000#32 = 1 := by
  simp [Ideal.ofBits, Ideal.ieee, -EReal.coe_mul]; norm_num

/-- The composed unit at an index is the exponential linear unit of the element. -/
theorem eluTerm_apply (x : FVec Ideal S8192x128 .f32) (i : S8192x128.Idx) :
    eluTerm (F := Ideal) x i = Cert.Encoder.elu (x i) := by
  have hz : zeros (F := Ideal) i = 0 := Ideal.ofBits_zero_f32
  have hc : cmpf .ogt x (zeros (F := Ideal)) i = BitVec.ofBool (decide (0 < x i)) := by
    rw [cmpf_apply, Ideal.cmpf_def, hz]; rfl
  unfold eluTerm Cert.Encoder.elu
  by_cases hx : 0 < x i
  · have hc1 : cmpf .ogt x (zeros (F := Ideal)) i = 1#1 := by rw [hc, decide_eq_true hx]; rfl
    rw [select_apply, hc1, select_one, if_pos hx]
  · have hc0 : cmpf .ogt x (zeros (F := Ideal)) i = 0#1 := by rw [hc, decide_eq_false hx]; rfl
    rw [select_apply, hc0, select_zero, if_neg hx, mulf_apply]
    show Ideal.ofBits .f32 0x3F800000#32 * (Ideal.exp (select (cmpf .ogt x (zeros (F := Ideal))) _ x i) - 1) = _
    rw [select_apply, hc0, select_zero, ofBits_one_f32, one_mul]

/-- A bias laid along the rows reads, at row `b` and column `n`, the bias at `n`. -/
theorem biasRows_apply (bias : FVec Ideal S128 .f32) (b : Fin 8192) (n : Fin 128) :
    biasRows (F := Ideal) bias (ix2 b n) = bias (ix1 n) := by
  unfold biasRows
  refine (broadcastInDim_apply _ _ _ (ix2 b n) (ix2 (0 : Fin 1) n) fun a => ?_).trans ?_
  · match a with
    | ⟨0, _⟩ => rfl
    | ⟨1, _⟩ => rfl
  · refine broadcastInDim_apply _ _ _ (ix2 (0 : Fin 1) n) (ix1 n) fun a => ?_
    match a with
    | ⟨0, _⟩ => rfl

/-- The contraction's one axis is the left operand's axis 1 and the right operand's axis 0, of extent 128. -/
theorem dot_lhs_0 (j : S8192x128.Idx) (k : dot_S8192x128_S128x128_S8192x128_1_0_0_1_n_n.contr.Idx) :
    (dot_S8192x128_S128x128_S8192x128_1_0_0_1_n_n.lhsIdx j k 0).val = (j 0).val := by
  simp [DotDims.lhsIdx, dot_S8192x128_S128x128_S8192x128_1_0_0_1_n_n]; rfl
theorem dot_lhs_1 (j : S8192x128.Idx) (k : dot_S8192x128_S128x128_S8192x128_1_0_0_1_n_n.contr.Idx) :
    (dot_S8192x128_S128x128_S8192x128_1_0_0_1_n_n.lhsIdx j k 1).val = (k ⟨0, by decide⟩).val :=
  DotDims.lhsIdx_val_of_single _ rfl j k
theorem dot_rhs_0 (j : S8192x128.Idx) (k : dot_S8192x128_S128x128_S8192x128_1_0_0_1_n_n.contr.Idx) :
    (dot_S8192x128_S128x128_S8192x128_1_0_0_1_n_n.rhsIdx j k 0).val = (k ⟨0, by decide⟩).val :=
  DotDims.rhsIdx_val_of_single _ rfl j k
theorem dot_rhs_1 (j : S8192x128.Idx) (k : dot_S8192x128_S128x128_S8192x128_1_0_0_1_n_n.contr.Idx) :
    (dot_S8192x128_S128x128_S8192x128_1_0_0_1_n_n.rhsIdx j k 1).val = (j 1).val := by
  simp [DotDims.rhsIdx, dot_S8192x128_S128x128_S8192x128_1_0_0_1_n_n]; rfl

/-- The host's matrix product at row `b` and column `n` is the sum over the contracted coordinate. -/
theorem dot_apply (h : FVec Ideal S8192x128 .f32) (W : FVec Ideal S128x128 .f32) (b : Fin 8192) (n : Fin 128) :
    Host.dotGeneral dot_S8192x128_S128x128_S8192x128_1_0_0_1_n_n none h W (ix2 b n)
      = ∑ k : Fin 128, h (ix2 b k) * W (ix2 k n) := by
  show FloatOps.dotGeneral _ none _ h W (ix2 b n) = _
  rw [Ideal.dotGeneral_apply,
    ← Equiv.sum_comp (contrEquiv1 dot_S8192x128_S128x128_S8192x128_1_0_0_1_n_n 128 rfl rfl).symm]
  refine Finset.sum_congr rfl fun c _ => ?_
  have hk := contrEquiv1_symm_val dot_S8192x128_S128x128_S8192x128_1_0_0_1_n_n 128 rfl rfl c
  have hl : dot_S8192x128_S128x128_S8192x128_1_0_0_1_n_n.lhsIdx (ix2 b n)
      ((contrEquiv1 dot_S8192x128_S128x128_S8192x128_1_0_0_1_n_n 128 rfl rfl).symm c) = ix2 b c := by
    funext ax; apply Fin.ext
    match ax with
    | ⟨0, _⟩ => exact dot_lhs_0 _ _
    | ⟨1, _⟩ => exact (dot_lhs_1 _ _).trans hk
  have hr : dot_S8192x128_S128x128_S8192x128_1_0_0_1_n_n.rhsIdx (ix2 b n)
      ((contrEquiv1 dot_S8192x128_S128x128_S8192x128_1_0_0_1_n_n 128 rfl rfl).symm c) = ix2 c n := by
    funext ax; apply Fin.ext
    match ax with
    | ⟨0, _⟩ => exact (dot_rhs_0 _ _).trans hk
    | ⟨1, _⟩ => exact dot_rhs_1 _ _
  rw [hl, hr]

/-! ## Words below 2³¹ -/

/-- A word below 2³¹ is not negative as a signed word, and reads the same signed and unsigned. -/
theorem word_small {a : BitVec 32} (ha : a.toNat < 2 ^ 31) :
    IntOp.cmpi .slt a 0#32 = 0#1 ∧ a.toInt.toNat = a.toNat := by
  have hi : a.toInt = a.toNat := by
    rw [BitVec.toInt_eq_msb_cond, BitVec.msb_eq_false_iff_two_mul_lt.mpr (by omega)]
    simp
  refine ⟨?_, by rw [hi]; rfl⟩
  unfold IntOp.cmpi
  have : a.slt 0#32 = false := by
    simp only [BitVec.slt, hi]
    simp
  rw [this]; rfl

/-! ## The gather at an index -/

/-- The gather reads, at row `b`, position `p` and column `n`, the operand at the two start-index components of
    `(b, p)`, each read signed and clamped into its axis, and column `n`. -/
theorem gather_apply {α : Type} (x : S80x256x128.Idx → α) (idx : IVec S8192x80x2 32) (b : Fin 8192) (p : Fin 80) (n : Fin 128) :
    Host.gather gather_S80x256x128_S8192x80x2_S8192x80x128_2_01_n_n_01_2_11128 x idx (ix3 b p n)
      = x (ix3 (⟨min (idx (ix3 b p (0 : Fin 2))).toInt.toNat 79, by omega⟩ : Fin 80)
            (⟨min (idx (ix3 b p (1 : Fin 2))).toInt.toNat 255, by omega⟩ : Fin 256) n) := by
  unfold Host.gather
  congr 1
  funext a
  refine Fin.ext ?_
  match a with
  | ⟨0, _⟩ =>
    show gather_S80x256x128_S8192x80x2_S8192x80x128_2_01_n_n_01_2_11128.start (ix3 b p n) idx 0 + gather_S80x256x128_S8192x80x2_S8192x80x128_2_01_n_n_01_2_11128.batchCoord (ix3 b p n) 0 + gather_S80x256x128_S8192x80x2_S8192x80x128_2_01_n_n_01_2_11128.offCoord (ix3 b p n) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S80x256x128_S8192x80x2_S8192x80x128_2_01_n_n_01_2_11128.startIndexMap by decide)]
    have hsi : gather_S80x256x128_S8192x80x2_S8192x80x128_2_01_n_n_01_2_11128.siIdx (ix3 b p n) ⟨List.idxOf (0 : Fin 3) gather_S80x256x128_S8192x80x2_S8192x80x128_2_01_n_n_01_2_11128.startIndexMap,
        List.idxOf_lt_length_iff.2 (by decide)⟩ = ix3 b p (0 : Fin 2) := by
      funext c; refine Fin.ext ?_
      match c with
      | ⟨0, _⟩ => rfl
      | ⟨1, _⟩ => rfl
      | ⟨2, _⟩ => rfl
    rw [hsi]
    rfl
  | ⟨1, _⟩ =>
    show gather_S80x256x128_S8192x80x2_S8192x80x128_2_01_n_n_01_2_11128.start (ix3 b p n) idx 1 + gather_S80x256x128_S8192x80x2_S8192x80x128_2_01_n_n_01_2_11128.batchCoord (ix3 b p n) 1 + gather_S80x256x128_S8192x80x2_S8192x80x128_2_01_n_n_01_2_11128.offCoord (ix3 b p n) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S80x256x128_S8192x80x2_S8192x80x128_2_01_n_n_01_2_11128.startIndexMap by decide)]
    have hsi : gather_S80x256x128_S8192x80x2_S8192x80x128_2_01_n_n_01_2_11128.siIdx (ix3 b p n) ⟨List.idxOf (1 : Fin 3) gather_S80x256x128_S8192x80x2_S8192x80x128_2_01_n_n_01_2_11128.startIndexMap,
        List.idxOf_lt_length_iff.2 (by decide)⟩ = ix3 b p (1 : Fin 2) := by
      funext c; refine Fin.ext ?_
      match c with
      | ⟨0, _⟩ => rfl
      | ⟨1, _⟩ => rfl
      | ⟨2, _⟩ => rfl
    rw [hsi]
    rfl
  | ⟨2, _⟩ =>
    show gather_S80x256x128_S8192x80x2_S8192x80x128_2_01_n_n_01_2_11128.start (ix3 b p n) idx 2 + gather_S80x256x128_S8192x80x2_S8192x80x128_2_01_n_n_01_2_11128.batchCoord (ix3 b p n) 2 + gather_S80x256x128_S8192x80x2_S8192x80x128_2_01_n_n_01_2_11128.offCoord (ix3 b p n) 2 = n.val
    rw [GatherDims.batchCoord_eq_zero _ _ _ List.not_mem_nil]
    unfold GatherDims.start
    rw [dif_neg (show ¬(2 : Fin 3) ∈ gather_S80x256x128_S8192x80x2_S8192x80x128_2_01_n_n_01_2_11128.startIndexMap by decide)]
    unfold GatherDims.offCoord
    rw [dif_pos (show (2 : Fin 3) ∈ gather_S80x256x128_S8192x80x2_S8192x80x128_2_01_n_n_01_2_11128.sKept by decide)]
    simp only [Nat.add_zero, Nat.zero_add]
    rfl

/-! ## The start indices and the table at an index -/

/-- The position component of the start indices at `(b, p)` is the word of `p`: an iota's word below 80 is not negative. -/
theorem startIdx_pos (msg : IVec S8192x80 32) (b : Fin 8192) (p : Fin 80) :
    startIdx msg (ix3 b p (0 : Fin 2)) = BitVec.ofNat 32 p.val := by
  unfold startIdx
  refine (concatenate_pair_apply_left (t := S8192x80x2) (s₁ := S8192x80x1) (s₂ := S8192x80x1) (2 : Fin 3) _ _ _ (ix3 b p (0 : Fin 2)) rfl (ix3 b p (0 : Fin 1)) fun c => ?_).trans ?_
  · match c with
    | ⟨0, _⟩ => rfl
    | ⟨1, _⟩ => rfl
    | ⟨2, _⟩ => rfl
  refine (broadcastInDim_apply _ _ _ (ix3 b p (0 : Fin 1)) (ix2 b p) fun a => ?_).trans ?_
  · match a with
    | ⟨0, _⟩ => rfl
    | ⟨1, _⟩ => rfl
  refine (broadcastInDim_apply _ _ _ (ix2 b p) (ix1 p) fun a => ?_).trans ?_
  · match a with
    | ⟨0, _⟩ => rfl
  unfold posIdx
  rw [select_apply]
  show Scalar.select (IntOp.cmpi .slt (BitVec.ofNat 32 p.val) 0#32) _ (BitVec.ofNat 32 p.val) = _
  rw [(word_small (a := BitVec.ofNat 32 p.val) (by simp only [BitVec.toNat_ofNat]; omega)).1, select_zero]

/-- The character component of the start indices at `(b, p)` is the message's character there, when it is below 256. -/
theorem startIdx_ch (msg : IVec S8192x80 32) (b : Fin 8192) (p : Fin 80) (h : (msg (ix2 b p)).toNat < 256) :
    startIdx msg (ix3 b p (1 : Fin 2)) = msg (ix2 b p) := by
  unfold startIdx
  refine (concatenate_pair_apply_right (t := S8192x80x2) (s₁ := S8192x80x1) (s₂ := S8192x80x1) (2 : Fin 3) _ _ _ (ix3 b p (1 : Fin 2)) rfl rfl (ix3 b p (0 : Fin 1))
    (fun c hc => ?_) rfl).trans ?_
  · match c with
    | ⟨0, _⟩ => rfl
    | ⟨1, _⟩ => rfl
    | ⟨2, _⟩ => exact (hc (Fin.ext rfl)).elim
  refine (broadcastInDim_apply _ _ _ (ix3 b p (0 : Fin 1)) (ix2 b p) fun a => ?_).trans ?_
  · match a with
    | ⟨0, _⟩ => rfl
    | ⟨1, _⟩ => rfl
  unfold chIdx
  rw [select_apply]
  show Scalar.select (IntOp.cmpi .slt (msg (ix2 b p)) 0#32) _ (msg (ix2 b p)) = _
  rw [(word_small (a := msg (ix2 b p)) (by omega)).1, select_zero]

/-- The table read as 80 slabs of 256 rows: slab `p`, row `c`, column `n` is row `256 · p + c`. -/
theorem table_apply (W1 : FVec Ideal S20480x128 .f32) (p : Fin 80) (c : Fin 256) (n : Fin 128) :
    shapeCast S80x256x128 W1 shapeCasts_S20480x128_S80x256x128 (ix3 p c n)
      = W1 (ix2 (⟨p.val * 256 + c.val, by omega⟩ : Fin 20480) n) :=
  shapeCast_apply W1 _ _ _ (by
    rw [Shape.rowMajor_val_two, Shape.rowMajor_val_three]
    rfl)

/-- The gather at `(b, p, n)` when the two start-index components of `(b, p)`, read signed, are a slab `r` and a row `c`
    inside the operand: the clamp changes neither. -/
theorem gather_row {α : Type} (x : S80x256x128.Idx → α) (idx : IVec S8192x80x2 32) (b : Fin 8192) (p : Fin 80) (n : Fin 128)
    (r : Fin 80) (c : Fin 256) (hr : (idx (ix3 b p (0 : Fin 2))).toInt.toNat = r.val)
    (hc : (idx (ix3 b p (1 : Fin 2))).toInt.toNat = c.val) :
    Host.gather gather_S80x256x128_S8192x80x2_S8192x80x128_2_01_n_n_01_2_11128 x idx (ix3 b p n) = x (ix3 r c n) := by
  refine (gather_apply x idx b p n).trans (congrArg x ?_)
  funext a; refine Fin.ext ?_
  match a with
  | ⟨0, _⟩ => show min (idx (ix3 b p (0 : Fin 2))).toInt.toNat 79 = r.val; rw [hr]; omega
  | ⟨1, _⟩ => show min (idx (ix3 b p (1 : Fin 2))).toInt.toNat 255 = c.val; rw [hc]; omega
  | ⟨2, _⟩ => rfl

/-! ## The embedding at an index -/

/-- The result shape drops the positions' axis of the gathered rows. -/
theorem reduces_pos : S8192x80x128.Reduces [1] S8192x128 := by decide

/-- The host's sum over the positions, from zero, at row `b` and column `n`. -/
theorem posSum_apply (x : S8192x80x128.Idx → EReal) (b : Fin 8192) (n : Fin 128) :
    Ideal.hostReduceAdd reducesTo_S8192x80x128_S8192x128_d1 x 0 (ix2 b n) = ∑ p : Fin 80, x (ix3 b p n) := by
  rw [Ideal.hostReduceAdd_single reducesTo_S8192x80x128_S8192x128_d1 reduces_pos, zero_add]
  refine Finset.sum_congr rfl fun p _ => congrArg x ?_
  funext c; refine Fin.ext ?_
  match c with
  | ⟨0, _⟩ => rfl
  | ⟨1, _⟩ => rfl
  | ⟨2, _⟩ => rfl

/-- The embedding at row `b` and column `n` is the sum over the positions of the selected table rows. -/
theorem embTerm_apply (msg : IVec S8192x80 32) (W1 : FVec Ideal S20480x128 .f32) (hmsg : ∀ i, (msg i).toNat < 256)
    (b : Fin 8192) (n : Fin 128) :
    embTerm (F := Ideal) msg W1 (ix2 b n) = Cert.Encoder.embSum msg W1 b n := by
  unfold embTerm Cert.Encoder.embSum
  show Ideal.hostReduceAdd reducesTo_S8192x80x128_S8192x128_d1 _ (Ideal.ofBits .f32 0x00000000#32) (ix2 b n) = _
  rw [Ideal.ofBits_zero_f32, posSum_apply]
  refine Finset.sum_congr rfl fun p _ => ?_
  have h0 : (startIdx msg (ix3 b p (0 : Fin 2))).toInt.toNat = p.val := by
    rw [startIdx_pos, (word_small (by simp only [BitVec.toNat_ofNat]; omega)).2, BitVec.toNat_ofNat]; omega
  have h1 : (startIdx msg (ix3 b p (1 : Fin 2))).toInt.toNat = (msg (ix2 b p)).toNat := by
    rw [startIdx_ch _ _ _ (hmsg _), (word_small (by have := hmsg (ix2 b p); omega)).2]
  refine (gather_row _ _ b p n p ⟨(msg (ix2 b p)).toNat, hmsg _⟩ h0 h1).trans ?_
  refine (table_apply W1 p _ n).trans (congrArg W1 ?_)
  exact congrArg (fun r => ix2 r n) (Fin.ext (Cert.Encoder.tabRow_val p _ (hmsg _)).symm)

/-! ## The layers -/

/-- A dense layer at an index, over any description `g` of its input's rows. -/
theorem denseTerm_apply (h : FVec Ideal S8192x128 .f32) (g : Fin 8192 → Fin 128 → EReal)
    (hg : ∀ b k, h (ix2 b k) = g b k) (W : FVec Ideal S128x128 .f32) (bias : FVec Ideal S128 .f32)
    (b : Fin 8192) (n : Fin 128) :
    denseTerm (F := Ideal) h W bias (ix2 b n) = Cert.Encoder.dense g W bias b n := by
  unfold denseTerm Cert.Encoder.dense
  rw [eluTerm_apply, addf_apply, dot_apply, biasRows_apply]
  simp only [hg]

/-- On a message of characters in [0, 256) the reference's term is the encoder. -/
theorem refTerm_eq (msg : IVec S8192x80 32) (W1 : FVec Ideal S20480x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (hmsg : ∀ i, (msg i).toNat < 256) :
    refTerm (F := Ideal) msg W1 b1 W2 b2 W3 b3 W4 b4 = Cert.Encoder.encoder msg W1 b1 W2 b2 W3 b3 W4 b4 := by
  funext i
  obtain ⟨b, n, rfl⟩ : ∃ (b : Fin 8192) (n : Fin 128), i = ix2 b n := ⟨i 0, i 1, eq_ix2 i⟩
  unfold refTerm Cert.Encoder.encoder
  show denseTerm (F := Ideal) _ W4 b4 (ix2 b n) = Cert.Encoder.dense _ W4 b4 b n
  refine denseTerm_apply _ _ (fun b k => ?_) W4 b4 b n
  refine denseTerm_apply _ _ (fun b k => ?_) W3 b3 b k
  refine denseTerm_apply _ _ (fun b k => ?_) W2 b2 b k
  unfold Cert.Encoder.hidden
  rw [eluTerm_apply, addf_apply, embTerm_apply msg W1 hmsg, biasRows_apply]

end Cert.ReferenceIdeal.Hand

end
-- ==== Proof.KernelFold.lean ====
/-
  The kernel body's value as a short term. The body walks the 80 positions of a block of 1024 message rows: at
  position `p` it compares the block's column `p` with an iota over 256 lanes (a one-hot row per message row), and adds
  to the accumulator the products of that one-hot block with slab `p` of the two table halves. The accumulator then
  goes through the bias and the exponential linear unit and three dense layers. The printed body is this walk
  unrolled; here it is folded over the positions.
-/
import proofs.«423852_j8400956031557_3_alg».proof.Proof.Gen.KernelIdeal.Frame
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.SL.Sem

variable {F : FTy → Type} [FloatOps F]

/-- The one-hot block of a column of characters: lane `k` of row `r` is 1.0 where the row's character is `k`, else 0.0. -/
def oneHot (col : Vec F S1024x1 .i32) : FVec F S1024x256 .bf16 :=
  truncf .bf16 (sitofp .f32 (extui 32 (cmpi .eq (broadcastTo S1024x256 col broadcasts_S1024x1_S1024x256)
    (iota .tc S1024x256 32 [1] iota_S1024x256_d1_w32)) natLt_1_32)) bitsLt_bf16_f32

/-- One position's step: the accumulator plus the one-hot block times the slab of each table half. -/
def posStep (acc : FVec F S1024x128 .f32) (col : Vec F S1024x1 .i32) (hi lo : Vec F S1x256x128 .bf16) : FVec F S1024x128 .f32 :=
  addf (addf acc (matmul dot_S1024x256_S256x128_S1024x128_1_0_0_1_n_n none (oneHot col)
      (shapeCast S256x128 hi shapeCasts_S1x256x128_S256x128) (constant S1024x128 .f32 0x00000000#32)))
    (matmul dot_S1024x256_S256x128_S1024x128_1_0_0_1_n_n none (oneHot col)
      (shapeCast S256x128 lo shapeCasts_S1x256x128_S256x128) (constant S1024x128 .f32 0x00000000#32))

/-- Column `p` of the message block. -/
def colRect (p : Fin 80) : Rect S1024x80 :=
  Rect.unit (s := S1024x80) ![0, p.val] S1024x1.size (fun a => by
    match a with
    | ⟨0, _⟩ => exact Nat.le_refl 1024
    | ⟨1, _⟩ => exact p.isLt)

/-- Slab `p` of a table half. -/
def slabRect (p : Fin 80) : Rect S80x256x128 :=
  Rect.unit (s := S80x256x128) ![p.val, 0, 0] S1x256x128.size (fun a => by
    match a with
    | ⟨0, _⟩ => exact p.isLt
    | ⟨1, _⟩ => exact Nat.le_refl 256
    | ⟨2, _⟩ => exact Nat.le_refl 128)

/-- The accumulator after all 80 positions, from the zero block. -/
def accumulate (x0 : Vec F S1024x80 .i32) (x1 x2 : Vec F S80x256x128 .bf16) : FVec F S1024x128 .f32 :=
  (List.finRange 80).foldl
    (fun acc p => posStep acc (View.ld x0 (colRect p)) (View.ld x1 (slabRect p)) (View.ld x2 (slabRect p)))
    (broadcast S1024x128 (Scalar.ofBits .f32 0x00000000#32))

/-- The unit on a block, as the body spells it: `select (x > 0) x (exp x − 1)`. -/
def eluBlk (x : FVec F S1024x128 .f32) : FVec F S1024x128 .f32 :=
  select (cmpf .ogt x (broadcast S1024x128 (Scalar.ofBits .f32 0x00000000#32))) x
    (subf (exp x) (broadcast S1024x128 (Scalar.ofBits .f32 0x3F800000#32)))

/-- A bias row `[1, 128]` laid along the block's 1024 rows. -/
def biasBlk (b : Vec F S1x128 .f32) : FVec F S1024x128 .f32 :=
  broadcastTo S1024x128 (shapeCast S1x128 b shapeCasts_S1x128_S1x128) broadcasts_S1x128_S1024x128

/-- A dense layer on a block: the product with the weights, the bias, the unit. -/
def denseBlk (h : FVec F S1024x128 .f32) (W : Vec F S128x128 .bf16) (b : Vec F S1x128 .f32) : FVec F S1024x128 .f32 :=
  eluBlk (addf (matmul dot_S1024x128_S128x128_S1024x128_1_0_0_1_n_n none (truncf .bf16 h bitsLt_bf16_f32)
    (shapeCast S128x128 W shapeCasts_S128x128_S128x128) (constant S1024x128 .f32 0x00000000#32)) (biasBlk b))

/-- The block the body stores, from the ten input blocks. -/
def bodyTerm (x0 : Vec F S1024x80 .i32) (x1 x2 : Vec F S80x256x128 .bf16) (x3 : Vec F S1x128 .f32) (x4 : Vec F S128x128 .bf16)
    (x5 : Vec F S1x128 .f32) (x6 : Vec F S128x128 .bf16) (x7 : Vec F S1x128 .f32) (x8 : Vec F S128x128 .bf16)
    (x9 : Vec F S1x128 .f32) : FVec F S1024x128 .f32 :=
  denseBlk (denseBlk (denseBlk (eluBlk (addf (accumulate x0 x1 x2) (biasBlk (View.ld x3 r0_160))))
    (View.ld x4 r0_161) (View.ld x5 r0_160)) (View.ld x6 r0_161) (View.ld x7 r0_160)) (View.ld x8 r0_161) (View.ld x9 r0_160)

/-- The one-hot weight of character `ch` at lane `k`. -/
def hot (ch : BitVec 32) (k : Fin 256) : EReal := if ch = BitVec.ofNat 32 k.val then 1 else 0

end Cert.KernelIdeal.Hand

end
-- ==== Proof.KernelUnroll.lean ====
/-
  The printed body, one position after another for 80 positions and cut into parts by statement count, is the fold of
  `posStep` over the positions followed by the bias, the unit and the three dense layers: the same term, read folded.
-/
import proofs.«423852_j8400956031557_3_alg».proof.Proof.KernelFold

noncomputable section

open scoped BigOperators

namespace Cert.KernelIdeal.Hand

open Cert.KernelIdeal Cert.KernelIdeal.Gen Idealize.ShloMosaic Idealize.ShloMosaic.ValueIdx Idealize.SL.Sem

variable {F : FTy → Type} [FloatOps F]

/-- The 80 positions in order. -/
theorem finRange80 : List.finRange 80 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79] := by decide

/-- The output window's buffer after the body is the one store of `bodyTerm`. -/
theorem out0_10_eq (x0 : Vec F S1024x80 .i32) (x1 x2 : Vec F S80x256x128 .bf16) (x3 : Vec F S1x128 .f32) (x4 : Vec F S128x128 .bf16)
    (x5 : Vec F S1x128 .f32) (x6 : Vec F S128x128 .bf16) (x7 : Vec F S1x128 .f32) (x8 : Vec F S128x128 .bf16)
    (x9 : Vec F S1x128 .f32) :
    out0_10 x0 x1 x2 x3 x4 x5 x6 x7 x8 x9 = View.canon [⟨r0_162, bodyTerm x0 x1 x2 x3 x4 x5 x6 x7 x8 x9⟩] := by
  -- the fold over the listed positions is a nest of 80 steps from the zero block
  unfold out0_10 bodyTerm accumulate
  rw [finRange80]
  simp only [List.foldl_cons, List.foldl_nil]
  -- each part of the printed body is its statements with the intermediate values substituted: the same nest, where
  -- column `p` of the message block and slab `p` of a table half are the rectangles the body loads through
  rfl

end Cert.KernelIdeal.Hand

end
-- ==== Proof.KernelAccum.lean ====
/-
  The accumulator read at one row and one column, at the ideal instance: each position adds the one-hot weighted
  sum of its slab's 256 rows, for each of the two table halves; a product with a zero accumulator is the plain sum, and
  the 80 steps from the zero block add up to the sum over the positions.
-/
import proofs.«423852_j8400956031557_3_alg».proof.Proof.KernelFold

noncomputable section

open scoped BigOperators

namespace Cert.KernelIdeal.Hand

open Cert.KernelIdeal Cert.KernelIdeal.Gen Idealize.ShloMosaic Idealize.ShloMosaic.ValueIdx Idealize.SL.Sem

/-! The steps of the reading, kept in a namespace of their own. -/

namespace Accum

/-- Column `p` of the message block, read at row `r`. -/
theorem ld_col (x0 : Vec Ideal S1024x80 .i32) (p : Fin 80) (r : Fin 1024) :
    View.ld x0 (colRect p) (ix2 r (0 : Fin 1)) = x0 (ix2 r p) := by
  show x0 ((colRect p).idx (ix2 r (0 : Fin 1))) = _
  refine congrArg x0 (funext fun a => Fin.ext ?_)
  match a with
  | ⟨0, _⟩ => show 0 + 1 * r.val = r.val; omega
  | ⟨1, _⟩ => show p.val + 1 * 0 = p.val; omega

/-- Slab `p` of a table half, read at row `k` and column `n`. -/
theorem ld_slab (x : Vec Ideal S80x256x128 .bf16) (p : Fin 80) (k : Fin 256) (n : Fin 128) :
    View.ld x (slabRect p) (ix3 (0 : Fin 1) k n) = x (ix3 p k n) := by
  show x ((slabRect p).idx (ix3 (0 : Fin 1) k n)) = _
  refine congrArg x (funext fun a => Fin.ext ?_)
  match a with
  | ⟨0, _⟩ => show p.val + 1 * 0 = p.val; omega
  | ⟨1, _⟩ => show 0 + 1 * k.val = k.val; omega
  | ⟨2, _⟩ => show 0 + 1 * n.val = n.val; omega

/-- The one-hot block at row `r`, lane `k`: the weight of the row's character at that lane. -/
theorem oneHot_apply (col : Vec Ideal S1024x1 .i32) (r : Fin 1024) (k : Fin 256) :
    oneHot (F := Ideal) col (ix2 r k) = hot (col (ix2 r (0 : Fin 1))) k := by
  unfold oneHot hot
  rw [truncf_apply, sitofp_apply, extui_apply]
  show FloatOps.sitofp (F := Ideal) .f32 ((IntOp.cmpi .eq (broadcastTo S1024x256 col broadcasts_S1024x1_S1024x256 (ix2 r k))
      (iota .tc S1024x256 32 [1] iota_S1024x256_d1_w32 (ix2 r k))).setWidth 32) = _
  rw [iota_single_apply, broadcastTo_apply col broadcasts_S1024x1_S1024x256 (ix2 r k) (ix2 r (0 : Fin 1)) (fun a => by
    match a with
    | ⟨0, _⟩ => rfl
    | ⟨1, _⟩ => rfl)]
  show ((((IntOp.cmpi .eq (col (ix2 r (0 : Fin 1))) (BitVec.ofNat 32 k.val)).setWidth 32).toInt : ℝ) : EReal) = _
  by_cases h : col (ix2 r (0 : Fin 1)) = BitVec.ofNat 32 k.val
  · have e : IntOp.cmpi .eq (col (ix2 r (0 : Fin 1))) (BitVec.ofNat 32 k.val) = 1#1 := by
      rw [h]; simp [IntOp.cmpi]
    have e1 : ((1#1 : BitVec 1).setWidth 32).toInt = 1 := by decide
    rw [if_pos h, e, e1]; simp
  · have e : IntOp.cmpi .eq (col (ix2 r (0 : Fin 1))) (BitVec.ofNat 32 k.val) = 0#1 := by
      show BitVec.ofBool (col (ix2 r (0 : Fin 1)) == BitVec.ofNat 32 k.val) = 0#1
      rw [beq_eq_false_iff_ne.mpr h]; rfl
    have e0 : ((0#1 : BitVec 1).setWidth 32).toInt = 0 := by decide
    rw [if_neg h, e, e0]; simp

/-! The product's operand indices, axis by axis. -/

theorem lhs_dot_0 (j : S1024x128.Idx) (q : dot_S1024x256_S256x128_S1024x128_1_0_0_1_n_n.contr.Idx) :
    ((dot_S1024x256_S256x128_S1024x128_1_0_0_1_n_n.lhsIdx j q) 0).val = (j 0).val := by
  simp [DotDims.lhsIdx, dot_S1024x256_S256x128_S1024x128_1_0_0_1_n_n]; rfl

theorem lhs_dot_1 (j : S1024x128.Idx) (q : dot_S1024x256_S256x128_S1024x128_1_0_0_1_n_n.contr.Idx) :
    ((dot_S1024x256_S256x128_S1024x128_1_0_0_1_n_n.lhsIdx j q) 1).val = (q ⟨0, by decide⟩).val :=
  dot_S1024x256_S256x128_S1024x128_1_0_0_1_n_n.lhsIdx_val_of_single (cl := 1) rfl j q

theorem rhs_dot_0 (j : S1024x128.Idx) (q : dot_S1024x256_S256x128_S1024x128_1_0_0_1_n_n.contr.Idx) :
    ((dot_S1024x256_S256x128_S1024x128_1_0_0_1_n_n.rhsIdx j q) 0).val = (q ⟨0, by decide⟩).val :=
  dot_S1024x256_S256x128_S1024x128_1_0_0_1_n_n.rhsIdx_val_of_single (cr := 0) rfl j q

theorem rhs_dot_1 (j : S1024x128.Idx) (q : dot_S1024x256_S256x128_S1024x128_1_0_0_1_n_n.contr.Idx) :
    ((dot_S1024x256_S256x128_S1024x128_1_0_0_1_n_n.rhsIdx j q) 1).val = (j 1).val := by
  simp [DotDims.rhsIdx, dot_S1024x256_S256x128_S1024x128_1_0_0_1_n_n]; rfl

/-- A product into the zero block, read at row `r`, column `n`: the sum over the 256 contracted lanes. -/
theorem matmul_zero_apply (A : FVec Ideal S1024x256 .bf16) (B : FVec Ideal S256x128 .bf16) (r : Fin 1024) (n : Fin 128) :
    matmul dot_S1024x256_S256x128_S1024x128_1_0_0_1_n_n none A B (constant (F := Ideal) S1024x128 .f32 0x00000000#32) (ix2 r n)
      = ∑ k : Fin 256, A (ix2 r k) * B (ix2 k n) := by
  show FloatOps.matmul dot_S1024x256_S256x128_S1024x128_1_0_0_1_n_n none A B (constant (F := Ideal) S1024x128 .f32 0x00000000#32) (ix2 r n) = _
  rw [Ideal.matmul_constant_zero_apply,
    ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have hl : dot_S1024x256_S256x128_S1024x128_1_0_0_1_n_n.lhsIdx (ix2 r n)
      ((contrEquiv1 dot_S1024x256_S256x128_S1024x128_1_0_0_1_n_n 256 rfl rfl).symm k) = ix2 r k := by
    funext a; apply Fin.ext
    match a with
    | ⟨0, _⟩ => exact lhs_dot_0 _ _
    | ⟨1, _⟩ => exact (lhs_dot_1 _ _).trans hk
  have hr : dot_S1024x256_S256x128_S1024x128_1_0_0_1_n_n.rhsIdx (ix2 r n)
      ((contrEquiv1 dot_S1024x256_S256x128_S1024x128_1_0_0_1_n_n 256 rfl rfl).symm k) = ix2 k n := by
    funext a; apply Fin.ext
    match a with
    | ⟨0, _⟩ => exact (rhs_dot_0 _ _).trans hk
    | ⟨1, _⟩ => exact rhs_dot_1 _ _
  rw [hl, hr]

/-- A slab viewed as a 256 × 128 block reads the slab at its one leading coordinate. -/
theorem slab_cast_apply (hi : Vec Ideal S1x256x128 .bf16) (k : Fin 256) (n : Fin 128) :
    shapeCast S256x128 hi shapeCasts_S1x256x128_S256x128 (ix2 k n) = hi (ix3 (0 : Fin 1) k n) := by
  refine (shapeCast_dropUnit_apply ![256, 128] hi shapeCasts_S1x256x128_S256x128 (ix2 k n)).trans ?_
  refine congrArg hi (funext fun a => ?_)
  match a with
  | ⟨0, _⟩ => rfl
  | ⟨1, _⟩ => rfl
  | ⟨2, _⟩ => rfl

/-- The one-hot block times a slab, into the zero block, at row `r`, column `n`: the one-hot weighted sum of the slab's rows. -/
theorem hotProduct_apply (col : Vec Ideal S1024x1 .i32) (hi : Vec Ideal S1x256x128 .bf16) (r : Fin 1024) (n : Fin 128) :
    matmul (φ₁ := .bf16) (φ₂ := .bf16) dot_S1024x256_S256x128_S1024x128_1_0_0_1_n_n none (oneHot (F := Ideal) col)
        (shapeCast S256x128 hi shapeCasts_S1x256x128_S256x128) (constant (F := Ideal) S1024x128 .f32 0x00000000#32) (ix2 r n)
      = ∑ k : Fin 256, hot (col (ix2 r (0 : Fin 1))) k * hi (ix3 (0 : Fin 1) k n) :=
  (matmul_zero_apply _ _ r n).trans (Finset.sum_congr rfl fun k _ =>
    congrArg₂ (fun (u v : EReal) => u * v) (oneHot_apply col r k) (slab_cast_apply hi k n))

/-- One position's step at row `r`, column `n`: the accumulator there plus the one-hot weighted sums of the two slabs. -/
theorem posStep_apply (acc : FVec Ideal S1024x128 .f32) (col : Vec Ideal S1024x1 .i32) (hi lo : Vec Ideal S1x256x128 .bf16)
    (r : Fin 1024) (n : Fin 128) :
    posStep (F := Ideal) acc col hi lo (ix2 r n)
      = acc (ix2 r n) + ((∑ k : Fin 256, hot (col (ix2 r (0 : Fin 1))) k * hi (ix3 (0 : Fin 1) k n))
          + ∑ k : Fin 256, hot (col (ix2 r (0 : Fin 1))) k * lo (ix3 (0 : Fin 1) k n)) := by
  unfold posStep
  rw [addf_apply, addf_apply, add_assoc]
  exact congrArg (acc (ix2 r n) + ·) (congrArg₂ (· + ·) (hotProduct_apply col hi r n) (hotProduct_apply col lo r n))

/-- The step on the loaded column and slabs of position `p`, at row `r`, column `n`. -/
theorem posStep_ld_apply (x0 : Vec Ideal S1024x80 .i32) (x1 x2 : Vec Ideal S80x256x128 .bf16) (a : FVec Ideal S1024x128 .f32)
    (p : Fin 80) (r : Fin 1024) (n : Fin 128) :
    posStep (F := Ideal) a (View.ld x0 (colRect p)) (View.ld x1 (slabRect p)) (View.ld x2 (slabRect p)) (ix2 r n)
      = a (ix2 r n) + ((∑ k : Fin 256, hot (x0 (ix2 r p)) k * x1 (ix3 p k n))
          + ∑ k : Fin 256, hot (x0 (ix2 r p)) k * x2 (ix3 p k n)) := by
  refine (posStep_apply a _ _ _ r n).trans (congrArg (a (ix2 r n) + ·) ?_)
  refine congrArg₂ (· + ·) (Finset.sum_congr rfl fun k _ => ?_) (Finset.sum_congr rfl fun k _ => ?_)
  · exact congrArg₂ (fun (c : BitVec 32) (v : EReal) => hot c k * v) (ld_col x0 p r) (ld_slab x1 p k n)
  · exact congrArg₂ (fun (c : BitVec 32) (v : EReal) => hot c k * v) (ld_col x0 p r) (ld_slab x2 p k n)

/-- The walk over any list of positions from any start, at row `r`, column `n`: the start there plus the list's steps. -/
theorem walk_apply (x0 : Vec Ideal S1024x80 .i32) (x1 x2 : Vec Ideal S80x256x128 .bf16) (r : Fin 1024) (n : Fin 128)
    (l : List (Fin 80)) (a : FVec Ideal S1024x128 .f32) :
    (l.foldl (fun acc p => posStep (F := Ideal) acc (View.ld x0 (colRect p)) (View.ld x1 (slabRect p)) (View.ld x2 (slabRect p))) a)
        (ix2 r n)
      = a (ix2 r n) + (l.map fun p => ((∑ k : Fin 256, hot (x0 (ix2 r p)) k * x1 (ix3 p k n))
          + ∑ k : Fin 256, hot (x0 (ix2 r p)) k * x2 (ix3 p k n))).sum := by
  induction l generalizing a with
  | nil => simp
  | cons p l ih =>
    rw [List.foldl_cons, ih, List.map_cons, List.sum_cons, posStep_ld_apply, add_assoc]

end Accum

/-- The accumulator at row `r`, column `n`: over the positions, the one-hot weighted sums of both table halves' slabs. -/
theorem accumulate_apply (x0 : Vec Ideal S1024x80 .i32) (x1 x2 : Vec Ideal S80x256x128 .bf16) (r : Fin 1024) (n : Fin 128) :
    accumulate (F := Ideal) x0 x1 x2 (ix2 r n)
      = ∑ p : Fin 80, ((∑ k : Fin 256, hot (x0 (ix2 r p)) k * x1 (ix3 p k n))
          + ∑ k : Fin 256, hot (x0 (ix2 r p)) k * x2 (ix3 p k n)) := by
  unfold accumulate
  rw [Accum.walk_apply, Fin.sum_univ_def]
  show Ideal.ofBits .f32 0x00000000#32 + _ = _
  rw [Ideal.ofBits_zero_f32, zero_add]

end Cert.KernelIdeal.Hand

end
-- ==== Proof.KernelTail.lean ====
/-
  The stored block read at one row and one column, at the ideal instance: the accumulator plus the first bias through
  the unit, then three dense layers, each the plain sum over the 128 hidden columns plus its bias through the unit.
  The unit as the body spells it, `select (x > 0) x (exp x − 1)`, is the specification's `elu`.
-/
import proofs.«423852_j8400956031557_3_alg».proof.Proof.KernelFold
import proofs.«423852_j8400956031557_3_alg».proof.Proof.Spec
import Idealize.ShloMosaic.Lib.ValueLayout
import Idealize.ShloMosaic.Lib.IdealHost

noncomputable section

open scoped BigOperators

namespace Cert.KernelIdeal.Hand

open Cert.KernelIdeal Cert.KernelIdeal.Gen Idealize.ShloMosaic Idealize.ShloMosaic.ValueIdx Idealize.SL.Sem

/-! ## The dense product's operand indices

For the product of a `[1024, 128]` block with a `[128, 128]` matrix, contracted over the left operand's columns and
the right operand's rows, the operand indices at output `(r, n)` and contraction position `c` are `(r, c)` and
`(c, n)`: one lemma per operand and axis. -/

/-- The left operand's row is the output's row. -/
theorem lhs_dense_0 (r : Fin 1024) (n : Fin 128) (c : Fin 128) :
    ((dot_S1024x128_S128x128_S1024x128_1_0_0_1_n_n.lhsIdx (ix2 r n)
      ((contrEquiv1 dot_S1024x128_S128x128_S1024x128_1_0_0_1_n_n 128 rfl rfl).symm c) 0 : Fin _) : ℕ) = r.val := by
  simp [DotDims.lhsIdx, dot_S1024x128_S128x128_S1024x128_1_0_0_1_n_n]; rfl

/-- The left operand's column is the contraction position. -/
theorem lhs_dense_1 (r : Fin 1024) (n : Fin 128) (c : Fin 128) :
    ((dot_S1024x128_S128x128_S1024x128_1_0_0_1_n_n.lhsIdx (ix2 r n)
      ((contrEquiv1 dot_S1024x128_S128x128_S1024x128_1_0_0_1_n_n 128 rfl rfl).symm c) 1 : Fin _) : ℕ) = c.val := by
  have c2 := contrEquiv1_symm_val dot_S1024x128_S128x128_S1024x128_1_0_0_1_n_n 128 rfl rfl c
  simp [DotDims.lhsIdx, dot_S1024x128_S128x128_S1024x128_1_0_0_1_n_n]; exact c2

/-- The right operand's row is the contraction position. -/
theorem rhs_dense_0 (r : Fin 1024) (n : Fin 128) (c : Fin 128) :
    ((dot_S1024x128_S128x128_S1024x128_1_0_0_1_n_n.rhsIdx (ix2 r n)
      ((contrEquiv1 dot_S1024x128_S128x128_S1024x128_1_0_0_1_n_n 128 rfl rfl).symm c) 0 : Fin _) : ℕ) = c.val := by
  have c2 := contrEquiv1_symm_val dot_S1024x128_S128x128_S1024x128_1_0_0_1_n_n 128 rfl rfl c
  simp [DotDims.rhsIdx, dot_S1024x128_S128x128_S1024x128_1_0_0_1_n_n]; exact c2

/-- The right operand's column is the output's column. -/
theorem rhs_dense_1 (r : Fin 1024) (n : Fin 128) (c : Fin 128) :
    ((dot_S1024x128_S128x128_S1024x128_1_0_0_1_n_n.rhsIdx (ix2 r n)
      ((contrEquiv1 dot_S1024x128_S128x128_S1024x128_1_0_0_1_n_n 128 rfl rfl).symm c) 1 : Fin _) : ℕ) = n.val := by
  simp [DotDims.rhsIdx, dot_S1024x128_S128x128_S1024x128_1_0_0_1_n_n]; rfl

/-! ## The pieces of a layer at an index -/

/-- A dense layer's product at `(r, n)`: the sum over the 128 hidden columns `k` of `h (r, k) · W (k, n)`. At the ideal
    values the narrowing of `h` changes nothing, the cast of `W` to its own shape is the identity, and the zero
    accumulator adds nothing. -/
theorem denseProd_apply (h : FVec Ideal S1024x128 .f32) (W : FVec Ideal S128x128 .bf16) (r : Fin 1024) (n : Fin 128) :
    matmul dot_S1024x128_S128x128_S1024x128_1_0_0_1_n_n none (truncf .bf16 h bitsLt_bf16_f32)
      (shapeCast S128x128 W shapeCasts_S128x128_S128x128) (constant (F := Ideal) S1024x128 .f32 0x00000000#32) (ix2 r n)
      = ∑ k : Fin 128, h (ix2 r k) * W (ix2 k n) := by
  rw [shapeCast_self]
  show FloatOps.matmul _ none _ _ _ (ix2 r n) = _
  rw [Ideal.matmul_constant_zero_apply,
    ← Equiv.sum_comp (contrEquiv1 dot_S1024x128_S128x128_S1024x128_1_0_0_1_n_n 128 rfl rfl).symm]
  refine Finset.sum_congr rfl fun c _ => ?_
  have l2 : dot_S1024x128_S128x128_S1024x128_1_0_0_1_n_n.lhsIdx (ix2 r n)
      ((contrEquiv1 dot_S1024x128_S128x128_S1024x128_1_0_0_1_n_n 128 rfl rfl).symm c) = ix2 r c := by
    funext ax; apply Fin.ext
    match ax with
    | ⟨0, _⟩ => exact lhs_dense_0 r n c
    | ⟨1, _⟩ => exact lhs_dense_1 r n c
  have r2 : dot_S1024x128_S128x128_S1024x128_1_0_0_1_n_n.rhsIdx (ix2 r n)
      ((contrEquiv1 dot_S1024x128_S128x128_S1024x128_1_0_0_1_n_n 128 rfl rfl).symm c) = ix2 c n := by
    funext ax; apply Fin.ext
    match ax with
    | ⟨0, _⟩ => exact rhs_dense_0 r n c
    | ⟨1, _⟩ => exact rhs_dense_1 r n c
  rw [l2, r2, truncf_apply]

/-- The unit on a block, at an index, is the specification's unit of the entry: the comparison with zero decides the
    select, and the two constants are zero and one. -/
theorem eluBlk_apply (x : FVec Ideal S1024x128 .f32) (r : Fin 1024) (n : Fin 128) :
    eluBlk (F := Ideal) x (ix2 r n) = Cert.Encoder.elu (x (ix2 r n)) := by
  unfold eluBlk Cert.Encoder.elu
  rw [select_apply, cmpf_apply, subf_apply, broadcast_apply, broadcast_apply]
  show Scalar.select (Ideal.cmp .ogt (x (ix2 r n)) (Ideal.ofBits .f32 0x00000000#32)) (x (ix2 r n))
      (Ideal.exp (x (ix2 r n)) - Ideal.ofBits .f32 0x3F800000#32) = _
  rw [Ideal.ofBits_zero_f32, Ideal.ofBits_one_f32]
  by_cases h : 0 < x (ix2 r n)
  · rw [if_pos h]
    have : Ideal.cmp .ogt (x (ix2 r n)) 0 = 1#1 := by simp [Ideal.cmp, h]
    rw [this, select_one]
  · rw [if_neg h]
    have : Ideal.cmp .ogt (x (ix2 r n)) 0 = 0#1 := by simp [Ideal.cmp, h]
    rw [this, select_zero]

/-- A bias row laid along the rows reads, at `(r, n)`, the row's entry `n`. -/
theorem biasBlk_apply (b : FVec Ideal S1x128 .f32) (r : Fin 1024) (n : Fin 128) :
    biasBlk (F := Ideal) b (ix2 r n) = b (ix2 0 n) := by
  unfold biasBlk
  rw [shapeCast_self]
  exact broadcastTo_1b_ab_apply b broadcasts_S1x128_S1024x128 r n

/-- A dense layer on a block, at `(r, n)`, is the specification's dense layer over the block's rows. -/
theorem denseBlk_apply (h : FVec Ideal S1024x128 .f32) (W : FVec Ideal S128x128 .bf16) (b : FVec Ideal S1x128 .f32)
    (r : Fin 1024) (n : Fin 128) :
    denseBlk (F := Ideal) h W b (ix2 r n)
      = Cert.Encoder.dense (fun r k => h (ix2 r k)) W (fun i => b (ix2 0 (i 0))) r n := by
  unfold denseBlk Cert.Encoder.dense
  rw [eluBlk_apply, addf_apply, denseProd_apply, biasBlk_apply]

/-- The specification's dense layer depends on its input only through the input's entries. -/
theorem dense_congr {ρ : Type} (h g : ρ → Fin 128 → EReal) (W : FVec Ideal Cert.Encoder.SMat .f32)
    (bias : FVec Ideal Cert.Encoder.SVec .f32) (hg : ∀ r k, h r k = g r k) (b : ρ) (n : Fin 128) :
    Cert.Encoder.dense h W bias b n = Cert.Encoder.dense g W bias b n := by
  have : h = g := funext fun r => funext fun k => hg r k
  rw [this]

/-- A whole bias row read through the rectangle at zero offsets is the row. -/
theorem ld_r0_160 (x : Vec Ideal S1x128 .f32) : View.ld x r0_160 = x :=
  View.ld_unit_zero (funext fun a => by match a with | ⟨0, _⟩ => rfl | ⟨1, _⟩ => rfl) _ x

/-- A whole weight matrix read through the rectangle at zero offsets is the matrix. -/
theorem ld_r0_161 (x : Vec Ideal S128x128 .bf16) : View.ld x r0_161 = x :=
  View.ld_unit_zero (funext fun a => by match a with | ⟨0, _⟩ => rfl | ⟨1, _⟩ => rfl) _ x

/-- The stored block at row `r`, column `n`: the encoder's layers over the block's rows, the first hidden layer from the
    accumulator, the weights and biases as the blocks hold them (a bias block is one row `[1, 128]`). -/
theorem bodyTerm_apply (x0 : Vec Ideal S1024x80 .i32) (x1 x2 : Vec Ideal S80x256x128 .bf16) (x3 : Vec Ideal S1x128 .f32)
    (x4 : Vec Ideal S128x128 .bf16) (x5 : Vec Ideal S1x128 .f32) (x6 : Vec Ideal S128x128 .bf16) (x7 : Vec Ideal S1x128 .f32)
    (x8 : Vec Ideal S128x128 .bf16) (x9 : Vec Ideal S1x128 .f32) (r : Fin 1024) (n : Fin 128) :
    bodyTerm (F := Ideal) x0 x1 x2 x3 x4 x5 x6 x7 x8 x9 (ix2 r n)
      = Cert.Encoder.dense (Cert.Encoder.dense (Cert.Encoder.dense
          (fun r n => Cert.Encoder.elu (accumulate (F := Ideal) x0 x1 x2 (ix2 r n) + x3 (ix2 0 n)))
          x4 (fun i => x5 (ix2 0 (i 0)))) x6 (fun i => x7 (ix2 0 (i 0)))) x8 (fun i => x9 (ix2 0 (i 0))) r n := by
  unfold bodyTerm
  rw [ld_r0_160 x3, ld_r0_160 x5, ld_r0_160 x7, ld_r0_160 x9, ld_r0_161 x4, ld_r0_161 x6, ld_r0_161 x8]
  -- the third dense layer, then the second, then the first, each over the entries of the layer below
  rw [denseBlk_apply]
  refine dense_congr _ _ _ _ (fun r k => ?_) r n
  rw [denseBlk_apply]
  refine dense_congr _ _ _ _ (fun r k => ?_) r k
  rw [denseBlk_apply]
  refine dense_congr _ _ _ _ (fun r k => ?_) r k
  -- the first hidden layer: the accumulator plus the first bias, through the unit
  rw [eluBlk_apply, addf_apply, biasBlk_apply]

end Cert.KernelIdeal.Hand

end
-- ==== Proof.KernelArray.lean ====
/-
  From the blocks to the array. Before the region the host operations reshape the table to 80 slabs (the rounded half
  is that reshape itself at the ideal instance; the residue is `x − x`, zero where the table is real), round the three
  weight matrices (the identity) and lay each bias as one row. The message and the result move one block of 1024 rows
  per grid point; every other window stays at its only block. At point `t` the stored block, read at row `r`, is the
  encoder at array row `1024 · t + r`: the one-hot weighted sum over a slab's 256 rows selects the character's row, the
  residue's sum vanishes, and the dense layers read one row at a time. The eight blocks tile the rows, so the result
  array after the run is the encoder of the arguments.
-/
import proofs.«423852_j8400956031557_3_alg».proof.Proof.Gen.KernelIdeal.Value
import proofs.«423852_j8400956031557_3_alg».proof.Proof.KernelUnroll
import proofs.«423852_j8400956031557_3_alg».proof.Proof.KernelAccum
import proofs.«423852_j8400956031557_3_alg».proof.Proof.KernelTail
import proofs.«423852_j8400956031557_3_alg».proof.Proof.Spec
import Idealize.ShloMosaic.Lib.StableHlo.Run

set_option maxRecDepth 16384

noncomputable section
open scoped BigOperators
namespace Cert.KernelIdeal.Hand

open Cert.KernelIdeal Cert.KernelIdeal.Gen Cert.KernelIdeal.Value Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The message as launched. -/
abbrev msgArr (c : Dev nD) : IVec S8192x80 32 := m ((c : Thread nD τ).loc main_arg0)
/-- The table as launched. -/
abbrev tabArr (c : Dev nD) : FVec Ideal S20480x128 .f32 := m ((c : Thread nD τ).loc main_arg1)

/-! ## The arrays the region finds -/

theorem V_hi (c : Dev nD) : (V m c main_v1 : S80x256x128.Idx → EReal)
    = shapeCast S80x256x128 (tabArr m c) shapeCasts_S20480x128_S80x256x128 := by
  dsimp only [Gen.V, Gen.hostOps0]
  after_results
  rfl

theorem V_lo (c : Dev nD) : (V m c main_v4 : S80x256x128.Idx → EReal)
    = fun i => shapeCast S80x256x128 (tabArr m c) shapeCasts_S20480x128_S80x256x128 i
        - shapeCast S80x256x128 (tabArr m c) shapeCasts_S20480x128_S80x256x128 i := by
  dsimp only [Gen.V, Gen.hostOps0]
  after_results
  rfl

theorem V_w2 (c : Dev nD) : (V m c main_v5 : S128x128.Idx → EReal) = m ((c : Thread nD τ).loc main_arg3) := by
  dsimp only [Gen.V, Gen.hostOps0]
  after_results
  rfl
theorem V_w3 (c : Dev nD) : (V m c main_v6 : S128x128.Idx → EReal) = m ((c : Thread nD τ).loc main_arg5) := by
  dsimp only [Gen.V, Gen.hostOps0]
  after_results
  rfl
theorem V_w4 (c : Dev nD) : (V m c main_v7 : S128x128.Idx → EReal) = m ((c : Thread nD τ).loc main_arg7) := by
  dsimp only [Gen.V, Gen.hostOps0]
  after_results
  rfl
theorem V_b1 (c : Dev nD) : (V m c main_v8 : S1x128.Idx → EReal)
    = shapeCast S1x128 (m ((c : Thread nD τ).loc main_arg2) : S128.Idx → EReal) shapeCasts_S128_S1x128 := by
  dsimp only [Gen.V, Gen.hostOps0]
  after_results
  rfl
theorem V_b2 (c : Dev nD) : (V m c main_v9 : S1x128.Idx → EReal)
    = shapeCast S1x128 (m ((c : Thread nD τ).loc main_arg4) : S128.Idx → EReal) shapeCasts_S128_S1x128 := by
  dsimp only [Gen.V, Gen.hostOps0]
  after_results
  rfl
theorem V_b3 (c : Dev nD) : (V m c main_v10 : S1x128.Idx → EReal)
    = shapeCast S1x128 (m ((c : Thread nD τ).loc main_arg6) : S128.Idx → EReal) shapeCasts_S128_S1x128 := by
  dsimp only [Gen.V, Gen.hostOps0]
  after_results
  rfl
theorem V_b4 (c : Dev nD) : (V m c main_v11 : S1x128.Idx → EReal)
    = shapeCast S1x128 (m ((c : Thread nD τ).loc main_arg8) : S128.Idx → EReal) shapeCasts_S128_S1x128 := by
  dsimp only [Gen.V, Gen.hostOps0]
  after_results
  rfl

/-- The reshaped table at slab `p`, row `k`, column `n` is the table at row `256 · p + k`. -/
theorem slab_apply (W : FVec Ideal S20480x128 .f32) (p : Fin 80) (k : Fin 256) (n : Fin 128) :
    shapeCast S80x256x128 W shapeCasts_S20480x128_S80x256x128 (ix3 p k n)
      = W (ix2 (⟨p.val * 256 + k.val, by have := p.isLt; have := k.isLt; omega⟩ : Fin 20480) n) := by
  refine shapeCast_apply _ _ _ _ ?_
  rw [Shape.rowMajor_val_two, Shape.rowMajor_val_three]
  rfl

/-- A bias reshaped to one row, at column `n`. -/
theorem biasRow_apply (b : FVec Ideal S128 .f32) (n : Fin 128) :
    shapeCast S1x128 b shapeCasts_S128_S1x128 (ix2 (0 : Fin 1) n) = b (ix1 n) := by
  refine shapeCast_apply _ _ _ _ ?_
  rw [Shape.rowMajor_val_two, Shape.rowMajor_val_one]
  show n.val = 0 * 128 + n.val
  omega

/-! ## The blocks -/

/-- The printed index maps, decided over the grid: the message and the result move one block per point along the
    rows; every other window stays at block 0. -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem point_lt (t : Fin cfg0.N) : t.val < 8 := by
  exact lt_of_lt_of_eq t.isLt N_0

/-- The array row of row `r` of block `t`. -/
def rowOf (t : Fin cfg0.N) (r : Fin 1024) : Fin 8192 :=
  ⟨t.val * 1024 + r.val, by have := point_lt t; have := r.isLt; omega⟩

/-- The ten input blocks at point `t`, each at its literal type. -/
abbrev blk0 (c : Dev nD) (t : Fin cfg0.N) : Vec Ideal S1024x80 .i32 := iblk m c 0 t
abbrev blk1 (c : Dev nD) (t : Fin cfg0.N) : Vec Ideal S80x256x128 .bf16 := iblk m c 1 t
abbrev blk2 (c : Dev nD) (t : Fin cfg0.N) : Vec Ideal S80x256x128 .bf16 := iblk m c 2 t
abbrev blk3 (c : Dev nD) (t : Fin cfg0.N) : Vec Ideal S1x128 .f32 := iblk m c 3 t
abbrev blk4 (c : Dev nD) (t : Fin cfg0.N) : Vec Ideal S128x128 .bf16 := iblk m c 4 t
abbrev blk5 (c : Dev nD) (t : Fin cfg0.N) : Vec Ideal S1x128 .f32 := iblk m c 5 t
abbrev blk6 (c : Dev nD) (t : Fin cfg0.N) : Vec Ideal S128x128 .bf16 := iblk m c 6 t
abbrev blk7 (c : Dev nD) (t : Fin cfg0.N) : Vec Ideal S1x128 .f32 := iblk m c 7 t
abbrev blk8 (c : Dev nD) (t : Fin cfg0.N) : Vec Ideal S128x128 .bf16 := iblk m c 8 t
abbrev blk9 (c : Dev nD) (t : Fin cfg0.N) : Vec Ideal S1x128 .f32 := iblk m c 9 t

theorem msgBlk_apply (c : Dev nD) (t : Fin cfg0.N) (r : Fin 1024) (p : Fin 80) :
    blk0 m c t (ix2 r p) = msgArr m c (ix2 (rowOf t r) p) := by
  show V m c main_arg0 (((cfg0.win 0).blk t).view.emb (ix2 r p)) = _
  rw [V_main_arg0]
  refine congrArg _ ?_
  funext a; apply Fin.ext
  obtain ⟨e0, e1, -⟩ := idx_facts t
  match a with
  | ⟨0, _⟩ => show win0_0.index t (0 : Fin 2) * 1024 + 1 * r.val = t.val * 1024 + r.val; omega
  | ⟨1, _⟩ => show win0_0.index t (1 : Fin 2) * 80 + 1 * p.val = p.val; omega
theorem hiBlk_apply (c : Dev nD) (t : Fin cfg0.N) (p : Fin 80) (k : Fin 256) (n : Fin 128) :
    blk1 m c t (ix3 p k n) = tabArr m c (ix2 (⟨p.val * 256 + k.val, by have := p.isLt; have := k.isLt; omega⟩ : Fin 20480) n) := by
  show V m c main_v1 (((cfg0.win 1).blk t).view.emb (ix3 p k n)) = _
  rw [V_hi]
  refine Eq.trans (congrArg _ ?_) (slab_apply (tabArr m c) p k n)
  funext a; apply Fin.ext
  obtain ⟨-, -, -, -, e0, e1, e2, -⟩ := idx_facts t
  match a with
  | ⟨0, _⟩ => show win0_1.index t (0 : Fin 3) * 80 + 1 * p.val = p.val; omega
  | ⟨1, _⟩ => show win0_1.index t (1 : Fin 3) * 256 + 1 * k.val = k.val; omega
  | ⟨2, _⟩ => show win0_1.index t (2 : Fin 3) * 128 + 1 * n.val = n.val; omega

theorem loBlk_apply (c : Dev nD) (t : Fin cfg0.N) (hW : ∀ i, ∃ x : ℝ, tabArr m c i = (x : EReal))
    (p : Fin 80) (k : Fin 256) (n : Fin 128) : blk2 m c t (ix3 p k n) = (0 : EReal) := by
  show V m c main_v4 (((cfg0.win 2).blk t).view.emb (ix3 p k n)) = _
  rw [V_lo]
  have e : ((cfg0.win 2).blk t).view.emb (ix3 p k n) = ix3 p k n := by
    funext a; apply Fin.ext
    obtain ⟨-, -, -, -, -, -, -, e0, e1, e2, -⟩ := idx_facts t
    match a with
    | ⟨0, _⟩ => show win0_2.index t (0 : Fin 3) * 80 + 1 * p.val = p.val; omega
    | ⟨1, _⟩ => show win0_2.index t (1 : Fin 3) * 256 + 1 * k.val = k.val; omega
    | ⟨2, _⟩ => show win0_2.index t (2 : Fin 3) * 128 + 1 * n.val = n.val; omega
  rw [e]
  show shapeCast S80x256x128 (tabArr m c) shapeCasts_S20480x128_S80x256x128 (ix3 p k n)
    - shapeCast S80x256x128 (tabArr m c) shapeCasts_S20480x128_S80x256x128 (ix3 p k n) = 0
  rw [slab_apply]
  obtain ⟨x, hx⟩ := hW (ix2 (⟨p.val * 256 + k.val, by have := p.isLt; have := k.isLt; omega⟩ : Fin 20480) n)
  rw [hx, ← EReal.coe_sub, sub_self, EReal.coe_zero]

/-- A weight block is the whole weight array. -/
theorem wBlk_eq (c : Dev nD) (t : Fin cfg0.N) :
    (blk4 m c t : S128x128.Idx → EReal) = m ((c : Thread nD τ).loc main_arg3)
    ∧ (blk6 m c t : S128x128.Idx → EReal) = m ((c : Thread nD τ).loc main_arg5)
    ∧ (blk8 m c t : S128x128.Idx → EReal) = m ((c : Thread nD τ).loc main_arg7) := by
  obtain ⟨-, -, -, -, -, -, -, -, -, -, -, -, e40, e41, -, -, e60, e61, -, -, e80, e81, -, -⟩ := idx_facts t
  refine ⟨?_, ?_, ?_⟩
  · funext j
    show V m c main_v5 (((cfg0.win 4).blk t).view.emb j) = _
    rw [V_w2]
    refine congrArg _ ?_
    funext a; apply Fin.ext
    match a with
    | ⟨0, _⟩ => show win0_4.index t (0 : Fin 2) * 128 + 1 * (j 0).val = (j 0).val; omega
    | ⟨1, _⟩ => show win0_4.index t (1 : Fin 2) * 128 + 1 * (j 1).val = (j 1).val; omega
  · funext j
    show V m c main_v6 (((cfg0.win 6).blk t).view.emb j) = _
    rw [V_w3]
    refine congrArg _ ?_
    funext a; apply Fin.ext
    match a with
    | ⟨0, _⟩ => show win0_6.index t (0 : Fin 2) * 128 + 1 * (j 0).val = (j 0).val; omega
    | ⟨1, _⟩ => show win0_6.index t (1 : Fin 2) * 128 + 1 * (j 1).val = (j 1).val; omega
  · funext j
    show V m c main_v7 (((cfg0.win 8).blk t).view.emb j) = _
    rw [V_w4]
    refine congrArg _ ?_
    funext a; apply Fin.ext
    match a with
    | ⟨0, _⟩ => show win0_8.index t (0 : Fin 2) * 128 + 1 * (j 0).val = (j 0).val; omega
    | ⟨1, _⟩ => show win0_8.index t (1 : Fin 2) * 128 + 1 * (j 1).val = (j 1).val; omega

/-- A bias block's one row is the bias. -/
theorem bBlk_apply (c : Dev nD) (t : Fin cfg0.N) (n : Fin 128) :
    blk3 m c t (ix2 (0 : Fin 1) n) = (m ((c : Thread nD τ).loc main_arg2) : S128.Idx → EReal) (ix1 n)
    ∧ blk5 m c t (ix2 (0 : Fin 1) n) = (m ((c : Thread nD τ).loc main_arg4) : S128.Idx → EReal) (ix1 n)
    ∧ blk7 m c t (ix2 (0 : Fin 1) n) = (m ((c : Thread nD τ).loc main_arg6) : S128.Idx → EReal) (ix1 n)
    ∧ blk9 m c t (ix2 (0 : Fin 1) n) = (m ((c : Thread nD τ).loc main_arg8) : S128.Idx → EReal) (ix1 n) := by
  obtain ⟨-, -, -, -, -, -, -, -, -, -, e30, e31, -, -, e50, e51, -, -, e70, e71, -, -, e90, e91⟩ := idx_facts t
  refine ⟨?_, ?_, ?_, ?_⟩
  · show V m c main_v8 (((cfg0.win 3).blk t).view.emb (ix2 (0 : Fin 1) n)) = _
    rw [V_b1]
    refine Eq.trans (congrArg _ ?_) (biasRow_apply _ n)
    funext a; apply Fin.ext
    match a with
    | ⟨0, _⟩ => show win0_3.index t (0 : Fin 2) * 1 + 1 * 0 = 0; omega
    | ⟨1, _⟩ => show win0_3.index t (1 : Fin 2) * 128 + 1 * n.val = n.val; omega
  · show V m c main_v9 (((cfg0.win 5).blk t).view.emb (ix2 (0 : Fin 1) n)) = _
    rw [V_b2]
    refine Eq.trans (congrArg _ ?_) (biasRow_apply _ n)
    funext a; apply Fin.ext
    match a with
    | ⟨0, _⟩ => show win0_5.index t (0 : Fin 2) * 1 + 1 * 0 = 0; omega
    | ⟨1, _⟩ => show win0_5.index t (1 : Fin 2) * 128 + 1 * n.val = n.val; omega
  · show V m c main_v10 (((cfg0.win 7).blk t).view.emb (ix2 (0 : Fin 1) n)) = _
    rw [V_b3]
    refine Eq.trans (congrArg _ ?_) (biasRow_apply _ n)
    funext a; apply Fin.ext
    match a with
    | ⟨0, _⟩ => show win0_7.index t (0 : Fin 2) * 1 + 1 * 0 = 0; omega
    | ⟨1, _⟩ => show win0_7.index t (1 : Fin 2) * 128 + 1 * n.val = n.val; omega
  · show V m c main_v11 (((cfg0.win 9).blk t).view.emb (ix2 (0 : Fin 1) n)) = _
    rw [V_b4]
    refine Eq.trans (congrArg _ ?_) (biasRow_apply _ n)
    funext a; apply Fin.ext
    match a with
    | ⟨0, _⟩ => show win0_9.index t (0 : Fin 2) * 1 + 1 * 0 = 0; omega
    | ⟨1, _⟩ => show win0_9.index t (1 : Fin 2) * 128 + 1 * n.val = n.val; omega

/-! ## One point's block is the encoder's rows -/

/-- A one-hot weighted sum over the 256 lanes selects the character's lane. -/
theorem hot_sum (ch : BitVec 32) (hch : ch.toNat < 256) (f : Fin 256 → EReal) :
    ∑ k : Fin 256, hot ch k * f k = f ⟨ch.toNat, hch⟩ := by
  rw [Finset.sum_eq_single (⟨ch.toNat, hch⟩ : Fin 256)]
  · have h : ch = BitVec.ofNat 32 ch.toNat := by simp
    unfold hot
    rw [if_pos h, one_mul]
  · intro k _ hk
    unfold hot
    rw [if_neg, zero_mul]
    intro h
    apply hk
    apply Fin.ext
    show k.val = ch.toNat
    rw [h, BitVec.toNat_ofNat]
    have := k.isLt
    omega
  · intro h
    exact absurd (Finset.mem_univ _) h

/-- The accumulator of block `t` at row `r`, column `n`, is the embedding of array row `rowOf t r`. -/
theorem acc_value (c : Dev nD) (t : Fin cfg0.N) (hW : ∀ i, ∃ x : ℝ, tabArr m c i = (x : EReal))
    (hmsg : ∀ i, (msgArr m c i).toNat < 256) (r : Fin 1024) (n : Fin 128) :
    accumulate (F := Ideal) (blk0 m c t) (blk1 m c t) (blk2 m c t) (ix2 r n)
      = Cert.Encoder.embSum (msgArr m c) (tabArr m c) (rowOf t r) n := by
  refine (accumulate_apply (blk0 m c t) (blk1 m c t) (blk2 m c t) r n).trans ?_
  unfold Cert.Encoder.embSum
  refine Finset.sum_congr rfl fun p _ => ?_
  have hlo : ∑ k : Fin 256, hot (blk0 m c t (ix2 r p)) k * blk2 m c t (ix3 p k n) = 0 := by
    refine Finset.sum_eq_zero fun k _ => ?_
    rw [loBlk_apply m c t hW p k n, mul_zero]
  rw [hlo, add_zero, msgBlk_apply m c t r p, hot_sum _ (hmsg _), hiBlk_apply]
  refine congrArg _ ?_
  refine congrArg (fun a => ix2 a n) ?_
  apply Fin.ext
  exact (Cert.Encoder.tabRow_val p _ (hmsg _)).symm

/-- A dense layer read at a row depends on its input at that row only, so rows may be renamed. -/
theorem dense_rows {ρ σ : Type} (h : ρ → Fin 128 → EReal) (g : σ → Fin 128 → EReal) (f : ρ → σ)
    (W W' : FVec Ideal Cert.Encoder.SMat .f32) (b b' : FVec Ideal Cert.Encoder.SVec .f32) (hW : W = W') (hb : b = b')
    (hfg : ∀ r k, h r k = g (f r) k) (r : ρ) (n : Fin 128) :
    Cert.Encoder.dense h W b r n = Cert.Encoder.dense g W' b' (f r) n := by
  subst hW hb
  unfold Cert.Encoder.dense
  simp only [hfg]

/-- The block point `t` stores, at row `r` and column `n`, is the encoder at array row `rowOf t r`. -/
theorem point_value (c : Dev nD) (t : Fin cfg0.N) (hW : ∀ i, ∃ x : ℝ, tabArr m c i = (x : EReal))
    (hmsg : ∀ i, (msgArr m c i).toNat < 256) (r : Fin 1024) (n : Fin 128) :
    bodyTerm (F := Ideal) (blk0 m c t) (blk1 m c t) (blk2 m c t) (blk3 m c t) (blk4 m c t) (blk5 m c t)
        (blk6 m c t) (blk7 m c t) (blk8 m c t) (blk9 m c t) (ix2 r n)
      = Cert.Encoder.encoder (msgArr m c) (tabArr m c) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (ix2 (rowOf t r) n) := by
  refine (bodyTerm_apply (blk0 m c t) (blk1 m c t) (blk2 m c t) (blk3 m c t) (blk4 m c t) (blk5 m c t)
    (blk6 m c t) (blk7 m c t) (blk8 m c t) (blk9 m c t) r n).trans ?_
  obtain ⟨w2, w3, w4⟩ := wBlk_eq m c t
  have hb : ∀ (blk : S1x128.Idx → EReal) (arr : S128.Idx → EReal), (∀ n : Fin 128, blk (ix2 (0 : Fin 1) n) = arr (ix1 n)) →
      (fun i : Cert.Encoder.SVec.Idx => blk (ix2 (0 : Fin 1) (i 0))) = arr := by
    intro blk arr h
    funext i
    rw [h (i 0)]
    exact congrArg arr (eq_ix1 i).symm
  have b2 := hb (blk5 m c t) (m ((c : Thread nD τ).loc main_arg4)) fun n => (bBlk_apply m c t n).2.1
  have b3 := hb (blk7 m c t) (m ((c : Thread nD τ).loc main_arg6)) fun n => (bBlk_apply m c t n).2.2.1
  have b4 := hb (blk9 m c t) (m ((c : Thread nD τ).loc main_arg8)) fun n => (bBlk_apply m c t n).2.2.2
  unfold Cert.Encoder.encoder
  show _ = Cert.Encoder.dense _ _ _ (rowOf t r) n
  refine dense_rows _ _ (rowOf t) _ _ _ _ w4 b4 (fun r k => ?_) r n
  refine dense_rows _ _ (rowOf t) _ _ _ _ w3 b3 (fun r k => ?_) r k
  refine dense_rows _ _ (rowOf t) _ _ _ _ w2 b2 (fun r k => ?_) r k
  unfold Cert.Encoder.hidden
  rw [acc_value m c t hW hmsg r k, (bBlk_apply m c t k).1]

/-! ## From the blocks to the array -/

theorem hz : (![0, 0] : Fin 2 → Nat) = fun _ => 0 := funext fun a => by fin_cases a <;> rfl

/-- The encoder of the arguments as launched. -/
abbrev result (c : Dev nD) : FVec Ideal S8192x128 .f32 :=
  Cert.Encoder.encoder (msgArr m c) (tabArr m c) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point `t` writes back is block `t` of the encoder of the arguments. -/
theorem flushed_eq (c : Dev nD) (t : Fin cfg0.N) (hW : ∀ i, ∃ x : ℝ, tabArr m c i = (x : EReal))
    (hmsg : ∀ i, (msgArr m c i).toNat < 256) :
    (dats m 0 c).flushed 10 t = ((cfg0.win 10).blk t).view.read (Elt Ideal) (result m c) := by
  rw [flushed10]
  refine (congrArg ((cfg0.win 10).cut (grid0.coords t)) (out0_10_eq (blk0 m c t) (blk1 m c t) (blk2 m c t) (blk3 m c t)
    (blk4 m c t) (blk5 m c t) (blk6 m c t) (blk7 m c t) (blk8 m c t) (blk9 m c t))).trans ?_
  rw [View.canon_unit_zero hz]
  funext j
  obtain ⟨r, n, rfl⟩ : ∃ (r : Fin 1024) (n : Fin 128), j = ix2 r n := ⟨j 0, j 1, eq_ix2 j⟩
  refine (point_value m c t hW hmsg r n).trans ?_
  show result m c (ix2 (rowOf t r) n) = result m c (((cfg0.win 10).blk t).view.emb (ix2 r n))
  refine congrArg _ ?_
  funext a; apply Fin.ext
  obtain ⟨-, -, e0, e1, -⟩ := idx_facts t
  match a with
  | ⟨0, _⟩ => show t.val * 1024 + r.val = win0_10.index t (0 : Fin 2) * 1024 + 1 * r.val; omega
  | ⟨1, _⟩ => show n.val = win0_10.index t (1 : Fin 2) * 128 + 1 * n.val; omega

/-- An index of the array is in point `t`'s block iff each coordinate is in the block's range on its axis. -/
theorem mem_blk (t : Fin cfg0.N) (i : S8192x128.Idx) :
    i ∈ ((cfg0.win 10).blk t).view.set ↔ ∀ a : Fin 2, win0_10.index t a * S1024x128.size a ≤ (i a).val
      ∧ (i a).val < win0_10.index t a * S1024x128.size a + S1024x128.size a := by
  show i ∈ ((View.whole main_v12).slice (win0_10.rect t)).set ↔ _
  rw [View.set_slice_whole, Rect.mem_set_unit]
  exact Iff.rfl

/-- Every index of the array lies in the block of the point its row names: the eight blocks tile the rows. -/
theorem cover (i : S8192x128.Idx) :
    ∃ t : Fin cfg0.N, (cfg0.win 10).flush t = true ∧ i ∈ ((cfg0.win 10).blk t).view.set := by
  have hi0 : (i 0).val < 8192 := (i 0).isLt
  have hi1 : (i 1).val < 128 := (i 1).isLt
  have ht : (i 0).val / 1024 < cfg0.N := lt_of_lt_of_eq (by omega) N_0.symm
  refine ⟨⟨(i 0).val / 1024, ht⟩, flush0_10 _, ?_⟩
  rw [mem_blk]
  obtain ⟨-, -, e0, e1, -⟩ := idx_facts ⟨(i 0).val / 1024, ht⟩
  intro a
  match a with
  | ⟨0, _⟩ =>
    show win0_10.index ⟨(i 0).val / 1024, ht⟩ (0 : Fin 2) * 1024 ≤ (i 0).val
      ∧ (i 0).val < win0_10.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_10.index ⟨(i 0).val / 1024, ht⟩ (1 : Fin 2) * 128 ≤ (i 1).val
      ∧ (i 1).val < win0_10.index ⟨(i 0).val / 1024, ht⟩ (1 : Fin 2) * 128 + 128
    rw [e1]
    omega

/-- The result array after the run is the encoder of the arguments. -/
theorem final (c : Dev nD) (hW : ∀ i, ∃ x : ℝ, tabArr m c i = (x : EReal)) (hmsg : ∀ i, (msgArr m c i).toNat < 256) :
    (dats m 0 c).arrAt 10 cfg0.N = result m c :=
  (dats m 0 c).arrAt_eq_of_cover 10 (result m c) (fun t _ => flushed_eq m c t hW hmsg) cover

/-! ## The run, read -/

/-- Every weakly fair execution of the idealized kernel's @main terminates with the result array at the encoder of
    the arguments and the arguments unchanged, when the table's entries are reals and the characters lie below 256. -/
theorem kernel_run (hpre : ∀ c : Dev nD, (∀ i, ∃ x : ℝ, tabArr m c i = (x : EReal)) ∧ ∀ i, (msgArr m c i).toNat < 256) :
    θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hpre c).1 (hpre c).2), (h c).2⟩) (run_blocks m ρ)

end Cert.KernelIdeal.Hand

end
-- ==== Proof.lean ====
/-
  The encoder certificate. The kernel gathers one table row per (message row, position) by a one-hot matrix product
  against each slab of the table, split into a rounded half and its residue, and sums over the 80 positions; the
  reference gathers the rows directly and sums them. On the extended reals a change of float format is the identity,
  so the rounded half is the table itself and the residue `x − x` is zero wherever the table is finite; a one-hot
  weighted sum over 256 lanes selects the character's row when the character lies in [0, 256), which is where the
  reference's index is in range. Both sides then are the same function of the arguments (`Cert.Encoder.encoder`):
  the bias, the exponential linear unit (`exp x − 1` against `1 · expm1 x`) and three dense layers are the same
  operations on both sides.

  The three frames: the kernel's and the idealized kernel's are the generated frame certificates; the reference's is
  its run with the result dropped. The ideal pass rewrote nothing, so `preserves` is trivial.
-/
import proofs.«423852_j8400956031557_3_alg».proof.Defs
import proofs.«423852_j8400956031557_3_alg».proof.Proof.Gen.Kernel
import proofs.«423852_j8400956031557_3_alg».proof.Proof.Gen.Kernel.Skeleton
import proofs.«423852_j8400956031557_3_alg».proof.Proof.Gen.Kernel.Launch
import proofs.«423852_j8400956031557_3_alg».proof.Proof.Gen.Kernel.Points
import proofs.«423852_j8400956031557_3_alg».proof.Proof.Gen.Kernel.Frame
import proofs.«423852_j8400956031557_3_alg».proof.Proof.Gen.KernelIdeal
import proofs.«423852_j8400956031557_3_alg».proof.Proof.Gen.KernelIdeal.Skeleton
import proofs.«423852_j8400956031557_3_alg».proof.Proof.Gen.KernelIdeal.Launch
import proofs.«423852_j8400956031557_3_alg».proof.Proof.Gen.KernelIdeal.Points
import proofs.«423852_j8400956031557_3_alg».proof.Proof.Gen.KernelIdeal.Frame
import proofs.«423852_j8400956031557_3_alg».proof.Proof.Gen.KernelIdeal.Value
import proofs.«423852_j8400956031557_3_alg».proof.Proof.Gen.ReferenceIdeal
import proofs.«423852_j8400956031557_3_alg».proof.Proof.Gen.Pre_finite_inputs
import proofs.«423852_j8400956031557_3_alg».proof.Proof.PreFacts
import proofs.«423852_j8400956031557_3_alg».proof.Proof.RefRun
import proofs.«423852_j8400956031557_3_alg».proof.Proof.RefValue
import proofs.«423852_j8400956031557_3_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the result at the encoder of the arguments: the
    kernel's array by its blocks, the reference's by its composed term. -/
theorem algebraic : Cert.algebraic_KernelIdeal_ReferenceIdeal := by
  intro m ρ m' ρ' hpre hagree
  have hp : ∀ c : Dev Cert.KernelIdeal.nD,
      (∀ i, ∃ x : ℝ, Cert.KernelIdeal.Hand.tabArr m c i = (x : EReal))
        ∧ ∀ i, (Cert.KernelIdeal.Hand.msgArr m c i).toNat < 256 :=
    fun c => Cert.Pre_finite_inputs.Hand.of_pre _ _ _ _ _ _ _ _ _ (hpre c)
  refine ⟨fun c => Cert.KernelIdeal.Hand.result m c, Cert.KernelIdeal.Hand.kernel_run m ρ hp, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact Cert.ReferenceIdeal.Hand.refTerm_eq _ _ _ _ _ _ _ _ _ (hp c).2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
